-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S128 .f32) (main_arg5 : FVec F S128x32 .f32) (main_arg6 : FVec F S32 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x32 .f32 := Host.absf main_arg5
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S16384x512 .f32) (main_arg1 : FVec F S512x256 .f32) (main_arg2 : FVec F S256 .f32) (main_arg3 : FVec F S256x128 .f32) (main_arg4 : FVec F S128 .f32) (main_arg5 : FVec F S128x32 .f32) (main_arg6 : FVec F S32 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_v13 main_v16
-- ==== Kernel.lean ====
abbrev S16384x512 : Shape := ⟨2, ![16384, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S1x256 : Shape := ⟨2, ![1, 256]⟩
abbrev S1x128 : Shape := ⟨2, ![1, 128]⟩
abbrev S_ : Shape := ⟨0, ![]⟩
abbrev S128x128 : Shape := ⟨2, ![128, 128]⟩
abbrev S2x8192x128 : Shape := ⟨3, ![2, 8192, 128]⟩
abbrev S2048x512 : Shape := ⟨2, ![2048, 512]⟩
abbrev S2x2048x128 : Shape := ⟨3, ![2, 2048, 128]⟩
abbrev S2048x256 : Shape := ⟨2, ![2048, 256]⟩
abbrev S2048x128 : Shape := ⟨2, ![2048, 128]⟩
abbrev S1x2048x128 : Shape := ⟨3, ![1, 2048, 128]⟩
abbrev S16384x128 : Shape := ⟨2, ![16384, 128]⟩
abbrev S16384x32 : Shape := ⟨2, ![16384, 32]⟩

abbrev nBuf : Space → Nat
  | .hbm => 19
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S512x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S128x32, .f32⟩
  | .hbm, ⟨6, _⟩ => ⟨S32, .f32⟩
  | .hbm, ⟨7, _⟩ => ⟨S1x256, .f32⟩
  | .hbm, ⟨8, _⟩ => ⟨S1x128, .f32⟩
  | .hbm, ⟨9, _⟩ => ⟨S_, .i32⟩
  | .hbm, ⟨10, _⟩ => ⟨S_, .f32⟩
  | .hbm, ⟨11, _⟩ => ⟨S128x128, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S2x8192x128, .f32⟩
  | .hbm, ⟨17, _⟩ => ⟨S16384x128, .f32⟩
  | .hbm, ⟨18, _⟩ => ⟨S16384x32, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S512x256, .f32⟩
  | .local _ .vmem, ⟨5, _⟩ => ⟨S1x256, .f32⟩
  | .local _ .vmem, ⟨6, _⟩ => ⟨S256x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S2x2048x128, .f32⟩
  | .local _ .vmem, ⟨11, _⟩ => ⟨S2x2048x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S256_S1x256 : S256.ShapeCasts S1x256
  shapeCasts_S128_S1x128 : S128.ShapeCasts S1x128
  pads_S128x32_S128x128_000_0960 : S128x32.Pads (![0, 0] : Fin 2 → Nat) ![0, 96] ![0, 0] S128x128
  h_S_ : 0 < S_.numel
  pads_S32_S128_0960 : S32.Pads (![0] : Fin 1 → Nat) ![96] ![0] S128
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2048x512_S2048x512_0_0 : ∀ a, (![0, 0] : Fin 2 → Nat) a + S2048x512.size a ≤ S2048x512.size a
  h_S2048x512 : 0 < S2048x512.numel
  broadcasts_S1x256_S2048x256 : S1x256.Broadcasts S2048x256
  broadcasts_S1x128_S2048x128 : S1x128.Broadcasts S2048x128
  inb_S2x2048x128_S1x2048x128_0_0_0 : ∀ a, (![0, 0, 0] : Fin 3 → Nat) a + S1x2048x128.size a ≤ S2x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  inb_S2x2048x128_S1x2048x128_1_0_0 : ∀ a, (![1, 0, 0] : Fin 3 → Nat) a + S1x2048x128.size a ≤ S2x2048x128.size a
  shapeCasts_S2x8192x128_S16384x128 : S2x8192x128.ShapeCasts S16384x128
  slices_S16384x128_S16384x32_0_0 : S16384x128.Slices ![0, 0] S16384x32
  dot_S2048x512_S512x256_S2048x256_1_0_0_1_n_n_wf : DotDims.WF S2048x512 S512x256 S2048x256 [1] [0] [0] [1] [] []
  dot_S2048x256_S256x128_S2048x128_1_0_0_1_n_n_wf : DotDims.WF S2048x256 S256x128 S2048x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S16384x512.size a
  hwx0_1 : ∀ i : grid0.Coords, EltTy.bits .f32 = 32 ∨ (Rect.block (s := S16384x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x2048x128.size a ≤ S2x8192x128.size a
  hwx0_8 : ∀ i : grid0.Coords, EltTy.bits .f32 = 32 ∨ (Rect.block (s := S2x8192x128) S2x2048x128.size (cc0_transform_8 i) (hinb0_8 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S2x2048x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S16384x256 : Shape := ⟨2, ![16384, 256]⟩
abbrev S1x256 : Shape := ⟨2, ![1, 256]⟩
abbrev S_ : Shape := ⟨0, ![]⟩
abbrev S16384x128 : Shape := ⟨2, ![16384, 128]⟩
abbrev S1x128 : Shape := ⟨2, ![1, 128]⟩
abbrev S16384x32 : Shape := ⟨2, ![16384, 32]⟩
abbrev S1x32 : Shape := ⟨2, ![1, 32]⟩

abbrev nBuf : Space → Nat
  | .hbm => 25
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S128x32, .f32⟩
  | .hbm, ⟨6, _⟩ => ⟨S32, .f32⟩
  | .hbm, ⟨7, _⟩ => ⟨S16384x256, .f32⟩
  | .hbm, ⟨8, _⟩ => ⟨S1x256, .f32⟩
  | .hbm, ⟨9, _⟩ => ⟨S16384x256, .f32⟩
  | .hbm, ⟨10, _⟩ => ⟨S16384x256, .f32⟩
  | .hbm, ⟨11, _⟩ => ⟨S_, .f32⟩
  | .hbm, ⟨12, _⟩ => ⟨S16384x256, .f32⟩
  | .hbm, ⟨13, _⟩ => ⟨S16384x256, .f32⟩
  | .hbm, ⟨14, _⟩ => ⟨S16384x128, .f32⟩
  | .hbm, ⟨15, _⟩ => ⟨S1x128, .f32⟩
  | .hbm, ⟨16, _⟩ => ⟨S16384x128, .f32⟩
  | .hbm, ⟨17, _⟩ => ⟨S16384x128, .f32⟩
  | .hbm, ⟨18, _⟩ => ⟨S_, .f32⟩
  | .hbm, ⟨19, _⟩ => ⟨S16384x128, .f32⟩
  | .hbm, ⟨20, _⟩ => ⟨S16384x128, .f32⟩
  | .hbm, ⟨21, _⟩ => ⟨S16384x32, .f32⟩
  | .hbm, ⟨22, _⟩ => ⟨S1x32, .f32⟩
  | .hbm, ⟨23, _⟩ => ⟨S16384x32, .f32⟩
  | .hbm, ⟨24, _⟩ => ⟨S16384x32, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  dot_S16384x512_S512x256_S16384x256_1_0_0_1_n_n_wf : DotDims.WF S16384x512 S512x256 S16384x256 [1] [0] [0] [1] [] []
  dot_S16384x256_S256x128_S16384x128_1_0_0_1_n_n_wf : DotDims.WF S16384x256 S256x128 S16384x128 [1] [0] [0] [1] [] []
  dot_S16384x128_S128x32_S16384x32_1_0_0_1_n_n_wf : DotDims.WF S16384x128 S128x32 S16384x32 [1] [0] [0] [1] [] []

variable [Facts₀]

def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x32_S16384x32_1_0_0_1_n_n : DotDims S16384x128 S128x32 S16384x32 where
  lhsContracting := [1]
  rhsContracting := [0]
  lhsNonContracting := [0]
  rhsNonContracting := [1]
  lhsBatch := []
  rhsBatch := []
  wf := dot_S16384x128_S128x32_S16384x32_1_0_0_1_n_n_wf

class Facts : Prop extends Facts₀ where

variable [Facts]
-- ==== Proof.K.Data.lean ====
import proofs.«114956_g19258633355276_cont_8to1_1994_22_alg».proof.Proof.Gen.Kernel.Launch
import proofs.«114956_g19258633355276_cont_8to1_1994_22_alg».proof.Proof.Gen.Kernel.Skeleton
import proofs.«114956_g19258633355276_cont_8to1_1994_22_alg».proof.Proof.Gen.Kernel.Points
import Idealize.ShloMosaic.Lib.Pipeline.FrameBody
import Idealize.ShloMosaic.Lib.Pipeline.FrameSuffix

/-! The proof data of the one pipeline: which contents each window's array has when the region is
entered, what every staging buffer holds after the body at each grid point, and at which share each
input array is held. The activation matrix is handed to the kernel twice (its upper and its lower
half of rows are two windows on one array), so the two windows hold complementary halves of that
array's share. -/

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The device's buffers when the region is entered: the launch contents after the host operations
    that precede the region (two bias reshapes, the zero padding of the last layer's weight and bias). -/
abbrev V0 (c : Dev nD) : Valuation τ sig (Elt F) :=
  StableHlo.after (List.flatten [hostOps0, hostOps0_1, hostOps0_2, hostOps0_3, hostOps0_4]) (fun b => m (c, b))

/-- The same, read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole-buffer rectangles the body loads through. -/
abbrev rX : Rect S2048x512 := Rect.unit (s := S2048x512) ![0, 0] S2048x512.size inb_S2048x512_S2048x512_0_0
abbrev rW1 : Rect S512x256 := Rect.unit (s := S512x256) ![0, 0] S512x256.size inb_S512x256_S512x256_0_0
abbrev rB1 : Rect S1x256 := Rect.unit (s := S1x256) ![0, 0] S1x256.size inb_S1x256_S1x256_0_0
abbrev rW2 : Rect S256x128 := Rect.unit (s := S256x128) ![0, 0] S256x128.size inb_S256x128_S256x128_0_0
abbrev rB2 : Rect S1x128 := Rect.unit (s := S1x128) ![0, 0] S1x128.size inb_S1x128_S1x128_0_0
abbrev rW3 : Rect S128x128 := Rect.unit (s := S128x128) ![0, 0] S128x128.size inb_S128x128_S128x128_0_0
/-- The two halves of the output block: slab 0 and slab 1 of its leading axis. -/
abbrev rLo : Rect S2x2048x128 := Rect.unit (s := S2x2048x128) ![0, 0, 0] S1x2048x128.size inb_S2x2048x128_S1x2048x128_0_0_0
abbrev rHi : Rect S2x2048x128 := Rect.unit (s := S2x2048x128) ![1, 0, 0] S1x2048x128.size inb_S2x2048x128_S1x2048x128_1_0_0

/-- What the body leaves in the output window's staging buffer, from the input blocks: slab 0 is the
    three-layer network applied to the rows of the first activation block, slab 1 to those of the second
    (the later store first). -/
def outBlock (xa xb : Vec F S2048x512 .f32) (w1 : Vec F S512x256 .f32) (b1 : Vec F S1x256 .f32) (w2 : Vec F S256x128 .f32)
    (b2 : Vec F S1x128 .f32) (w3 : Vec F S128x128 .f32) (b3 : Vec F S1x128 .f32) : Vec F S2x2048x128 .f32 :=
  View.canon [⟨rHi, k0_pay1 (k0_pay2 (View.ld w1 rW1)) (k0_pay3 (View.ld w2 rW2)) (k0_pay4 (View.ld w3 rW3)) (k0_pay5 (View.ld b1 rB1))
                (k0_pay6 (View.ld b2 rB2)) (k0_pay7 (View.ld b3 rB2)) (View.ld xb rX)⟩,
              ⟨rLo, k0_pay8 (View.ld w1 rW1) (View.ld w2 rW2) (View.ld w3 rW3) (View.ld b1 rB1) (View.ld b2 rB2) (View.ld b3 rB2) (View.ld xa rX)⟩]

/-- The proof data: the arrays as the region finds them; after the body each input's buffer at its block
    and the output's at `outBlock` of the input blocks; no invariant, nothing owed; the two windows on the
    activation matrix hold the two halves of its share, every other input the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) :
    (dats m 0 c).after 8 t = outBlock (iblk m c 0 t) (iblk m c 1 t) (iblk m c 2 t) (iblk m c 3 t) (iblk m c 4 t) (iblk m c 5 t) (iblk m c 6 t) (iblk m c 7 t) := by
  dsimp only [dats]

theorem share0_0 (c : Dev nD) : (dats m 0 c).share 0 = fullShare.left := rfl
theorem share0_1 (c : Dev nD) : (dats m 0 c).share 1 = fullShare.right := rfl
theorem share0_2 (c : Dev nD) : (dats m 0 c).share 2 = fullShare := rfl
theorem share0_3 (c : Dev nD) : (dats m 0 c).share 3 = fullShare := rfl
theorem share0_4 (c : Dev nD) : (dats m 0 c).share 4 = fullShare := rfl
theorem share0_5 (c : Dev nD) : (dats m 0 c).share 5 = fullShare := rfl
theorem share0_6 (c : Dev nD) : (dats m 0 c).share 6 = fullShare := rfl
theorem share0_7 (c : Dev nD) : (dats m 0 c).share 7 = fullShare := rfl
theorem share0_8 (c : Dev nD) : (dats m 0 c).share 8 = fullShare := rfl

/-! ## After the region -/

/-- The device's buffers when the program returns: the region's exit contents — the output array at what the
    write-backs left, every other buffer as the region found it — after the two host operations that follow the
    region (the output read as sixteen thousand rows, then its first thirty-two columns kept). -/
def Vend (c : Dev nD) : Valuation τ sig (Elt F) :=
  StableHlo.after hostOps1 ((StableHlo.nullary (τ := τ) main_v5 ((dats m 0 c).arrAt 8 cfg0.N)).result (V0 m c))

/-- What the two host operations after the region make of the output array. -/
def tailOut (Y : Vec F S2x8192x128 .f32) : Vec F S16384x32 .f32 :=
  extractStridedSlice S16384x32 ![0, 0] (shapeCast S16384x128 Y shapeCasts_S2x8192x128_S16384x128) slices_S16384x128_S16384x32_0_0

/-- What the run establishes of the final memory: every window's array at what the library computes from the
    proof data, every other unscoped buffer at `Vend`. -/
def RunPost (r : PUnit × MemSt nD τ sig (Elt F)) : Prop :=
  ∀ c : Dev nD,
    (∀ w : Fin cfg0.W, r.2.mem ((cfg0.win w).arr.view.loc (c.tc : Thread nD τ)) = (dats m 0 c).arrAt w cfg0.N)
    ∧ (∀ b ∈ Pipeline.restRefs sig spec0, r.2.mem ((c.tc : Thread nD τ).loc b) = Vend m c (Proc.devRef .tc b))

end Cert.Kernel.Hand

end
-- ==== Proof.K.Body.lean ====
import proofs.«114956_g19258633355276_cont_8to1_1994_22_alg».proof.Proof.K.Data
import Idealize.ShloMosaic.Lib.Ring
import Idealize.ShloMosaic.Lib.Tactic

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.Tactic

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each input window's current buffer holds

An input window's body leaves its block where it found it, no window is cut and none is ever idle, so at every
point the current staging buffer of each of the eight inputs holds that point's block of its array: freshly
fetched there, or (for the six weights and biases after the first point) still there from the fetch at the first
point, the block index not having moved. -/

theorem before0_0 (c : Dev nD) (t : Fin cfg0.N) (d) : (dats m 0 c).before 0 t d = iblk m c 0 t := by
  have hkeep : ∀ t, (cfg0.win 0).cut (cfg0.grid.coords t) ((dats m 0 c).after 0 t) = (dats m 0 c).blockOf 0 t := fun t => by
    rw [after0_0]; unfold Dat.blockOf iblk; rw [A_eq]; try rfl
  rw [(dats m 0 c).before_in_eq_fetched 0 rfl (fun _ => rfl) (fun _ _ _ => rfl) hkeep t d]
  unfold Dat.fetched Dat.blockOf iblk; rw [A_eq]; try rfl

theorem before0_1 (c : Dev nD) (t : Fin cfg0.N) (d) : (dats m 0 c).before 1 t d = iblk m c 1 t := by
  have hkeep : ∀ t, (cfg0.win 1).cut (cfg0.grid.coords t) ((dats m 0 c).after 1 t) = (dats m 0 c).blockOf 1 t := fun t => by
    rw [after0_1]; unfold Dat.blockOf iblk; rw [A_eq]; try rfl
  rw [(dats m 0 c).before_in_eq_fetched 1 rfl (fun _ => rfl) (fun _ _ _ => rfl) hkeep t d]
  unfold Dat.fetched Dat.blockOf iblk; rw [A_eq]; try rfl

theorem before0_2 (c : Dev nD) (t : Fin cfg0.N) (d) : (dats m 0 c).before 2 t d = iblk m c 2 t := by
  have hkeep : ∀ t, (cfg0.win 2).cut (cfg0.grid.coords t) ((dats m 0 c).after 2 t) = (dats m 0 c).blockOf 2 t := fun t => by
    rw [after0_2]; unfold Dat.blockOf iblk; rw [A_eq]; try rfl
  rw [(dats m 0 c).before_in_eq_fetched 2 rfl (fun _ => rfl) (fun _ _ _ => rfl) hkeep t d]
  unfold Dat.fetched Dat.blockOf iblk; rw [A_eq]; try rfl

theorem before0_3 (c : Dev nD) (t : Fin cfg0.N) (d) : (dats m 0 c).before 3 t d = iblk m c 3 t := by
  have hkeep : ∀ t, (cfg0.win 3).cut (cfg0.grid.coords t) ((dats m 0 c).after 3 t) = (dats m 0 c).blockOf 3 t := fun t => by
    rw [after0_3]; unfold Dat.blockOf iblk; rw [A_eq]; try rfl
  rw [(dats m 0 c).before_in_eq_fetched 3 rfl (fun _ => rfl) (fun _ _ _ => rfl) hkeep t d]
  unfold Dat.fetched Dat.blockOf iblk; rw [A_eq]; try rfl

theorem before0_4 (c : Dev nD) (t : Fin cfg0.N) (d) : (dats m 0 c).before 4 t d = iblk m c 4 t := by
  have hkeep : ∀ t, (cfg0.win 4).cut (cfg0.grid.coords t) ((dats m 0 c).after 4 t) = (dats m 0 c).blockOf 4 t := fun t => by
    rw [after0_4]; unfold Dat.blockOf iblk; rw [A_eq]; try rfl
  rw [(dats m 0 c).before_in_eq_fetched 4 rfl (fun _ => rfl) (fun _ _ _ => rfl) hkeep t d]
  unfold Dat.fetched Dat.blockOf iblk; rw [A_eq]; try rfl

theorem before0_5 (c : Dev nD) (t : Fin cfg0.N) (d) : (dats m 0 c).before 5 t d = iblk m c 5 t := by
  have hkeep : ∀ t, (cfg0.win 5).cut (cfg0.grid.coords t) ((dats m 0 c).after 5 t) = (dats m 0 c).blockOf 5 t := fun t => by
    rw [after0_5]; unfold Dat.blockOf iblk; rw [A_eq]; try rfl
  rw [(dats m 0 c).before_in_eq_fetched 5 rfl (fun _ => rfl) (fun _ _ _ => rfl) hkeep t d]
  unfold Dat.fetched Dat.blockOf iblk; rw [A_eq]; try rfl

theorem before0_6 (c : Dev nD) (t : Fin cfg0.N) (d) : (dats m 0 c).before 6 t d = iblk m c 6 t := by
  have hkeep : ∀ t, (cfg0.win 6).cut (cfg0.grid.coords t) ((dats m 0 c).after 6 t) = (dats m 0 c).blockOf 6 t := fun t => by
    rw [after0_6]; unfold Dat.blockOf iblk; rw [A_eq]; try rfl
  rw [(dats m 0 c).before_in_eq_fetched 6 rfl (fun _ => rfl) (fun _ _ _ => rfl) hkeep t d]
  unfold Dat.fetched Dat.blockOf iblk; rw [A_eq]; try rfl

theorem before0_7 (c : Dev nD) (t : Fin cfg0.N) (d) : (dats m 0 c).before 7 t d = iblk m c 7 t := by
  have hkeep : ∀ t, (cfg0.win 7).cut (cfg0.grid.coords t) ((dats m 0 c).after 7 t) = (dats m 0 c).blockOf 7 t := fun t => by
    rw [after0_7]; unfold Dat.blockOf iblk; rw [A_eq]; try rfl
  rw [(dats m 0 c).before_in_eq_fetched 7 rfl (fun _ => rfl) (fun _ _ _ => rfl) hkeep t d]
  unfold Dat.fetched Dat.blockOf iblk; rw [A_eq]; try rfl

/-! ## The two stores cover the output buffer

Slab 1 and slab 0 of the leading axis tile the `2 × 2048 × 128` block. -/

theorem cover_out (pHi pLo : Vec F S1x2048x128 .f32) (y : S2x2048x128.Idx) :
    ∃ pc ∈ ([⟨rHi, pHi⟩, ⟨rLo, pLo⟩] : List (View.Piece (Elt F) S2x2048x128 .f32)), y ∈ pc.1.set :=
  View.cover_of_tiled [⟨rHi, pHi⟩, ⟨rLo, pLo⟩] S1x2048x128.size (by rfl) y

/-! ## The body's triple -/

set_option maxHeartbeats 1000000 in
/-- The kernel function on whole staging memrefs — the eight inputs' at given contents, the output's at anything — runs
    to the continuation with the inputs' as they were and the output's at `outBlock` of the inputs'. The function reads
    the six weights and biases and the first activation block, reads slab 0 of the output (the value unused) and stores
    the network's value on the first block there, reads the second activation block, reads slab 1 of the output (unused
    again) and stores the network's value on the second block there. -/
theorem sound_kernel (c : Dev nD) (E : Set ℕ) (i : grid0.Coords) (a1 : Memref sig .tc .vmem S2048x512 .f32) (h1 : a1.IsWhole) (a2 : Memref sig .tc .vmem S2048x512 .f32) (h2 : a2.IsWhole) (a3 : Memref sig .tc .vmem S512x256 .f32) (h3 : a3.IsWhole) (a4 : Memref sig .tc .vmem S1x256 .f32) (h4 : a4.IsWhole) (a5 : Memref sig .tc .vmem S256x128 .f32) (h5 : a5.IsWhole) (a6 : Memref sig .tc .vmem S1x128 .f32) (h6 : a6.IsWhole) (a7 : Memref sig .tc .vmem S128x128 .f32) (h7 : a7.IsWhole) (a8 : Memref sig .tc .vmem S1x128 .f32) (h8 : a8.IsWhole) (a9 : Memref sig .tc .vmem S2x2048x128 .f32) (h9 : a9.IsWhole)
    (xa xb : Vec F S2048x512 .f32) (w1 : Vec F S512x256 .f32) (b1 : Vec F S1x256 .f32) (w2 : Vec F S256x128 .f32)
    (b2 : Vec F S1x128 .f32) (w3 : Vec F S128x128 .f32) (b3 : Vec F S1x128 .f32) (K : PUnit → sProp 𝕄) :
    iprop(owns (c : Thread nD τ) a1 fullShare xa ∗ owns (c : Thread nD τ) a2 fullShare xb ∗ owns (c : Thread nD τ) a3 fullShare w1 ∗ owns (c : Thread nD τ) a4 fullShare b1 ∗ owns (c : Thread nD τ) a5 fullShare w2 ∗ owns (c : Thread nD τ) a6 fullShare b2 ∗ owns (c : Thread nD τ) a7 fullShare w3 ∗ owns (c : Thread nD τ) a8 fullShare b3 ∗ (∃ d, owns (c : Thread nD τ) a9 fullShare d)
        ∗ (iprop(owns (c : Thread nD τ) a1 fullShare xa ∗ owns (c : Thread nD τ) a2 fullShare xb ∗ owns (c : Thread nD τ) a3 fullShare w1 ∗ owns (c : Thread nD τ) a4 fullShare b1 ∗ owns (c : Thread nD τ) a5 fullShare w2 ∗ owns (c : Thread nD τ) a6 fullShare b2 ∗ owns (c : Thread nD τ) a7 fullShare w3 ∗ owns (c : Thread nD τ) a8 fullShare b3 ∗ owns (c : Thread nD τ) a9 fullShare (outBlock xa xb w1 b1 w2 b2 w3 b3)) -∗ K ⟨⟩))
      ⊢ wp frame (wpE (defs₀ (F := F)) Variants.none c none) E (cc0__mlp_block i a1 h1 a2 h2 a3 h3 a4 h4 a5 h5 a6 h6 a7 h7 a8 h8 a9 h9) K := by
  simp only [cc0__mlp_block_eq_skeleton]; unfold cc0__mlp_block_skel
  simp only [k0_part1_eq_skeleton]; unfold k0_part1_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, Hk⟩
  subst e1 e2 e3 e4 e5 e6 e7 e8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  unfold outBlock
  exact View.read_writes_eq_canon _ _ _ (cover_out _ _)

/-! ## The body obligation, at a generic point -/

/-- What the body is handed at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- At any point the eight inputs' buffers hold their blocks, so the kernel's triple applies at those blocks; the
    invariant and what the core owes are not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Split.lean ====
import proofs.«114956_g19258633355276_cont_8to1_1994_22_alg».proof.Proof.K.Data
import Idealize.ShloMosaic.Lib.Pipeline.Kit
import Idealize.ShloMosaic.Lib.Pipeline.Launch

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The distinct buffers behind the nine windows' arrays, listed. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_arg1) ↦{fullShare} V main_arg1)
          ∗ (((c : Thread nD τ).loc main_v0) ↦{fullShare} V main_v0) ∗ (((c : Thread nD τ).loc main_arg3) ↦{fullShare} V main_arg3)
          ∗ (((c : Thread nD τ).loc main_v1) ↦{fullShare} V main_v1) ∗ (((c : Thread nD τ).loc main_v2) ↦{fullShare} V main_v2)
          ∗ (((c : Thread nD τ).loc main_v4) ↦{fullShare} V main_v4) ∗ (((c : Thread nD τ).loc main_v5) ↦{fullShare} V main_v5)) := by
  unfold Pipeline.arrBufs
  exact bigSep_eq_bigSepL_of_eq [main_arg0, main_arg1, main_v0, main_arg3, main_v1, main_v2, main_v4, main_v5] (by decide) (by decide) _

/-- One window's array in the pipeline's form is its whole buffer at the window's share. -/
theorem arr_eq (c : Dev nD) (dat : Dat τ (Elt F) Unit ℕ (UR sig nD τ) ℕ cfg0 c)
    (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) (w : Fin cfg0.W) :
    ((cfg0.win w).arr.view.loc (c : Thread nD τ) ↦[(cfg0.win w).arr.view.set]{dat.share w} G w : sProp 𝕄)
      = (((c : Thread nD τ).loc (Pipeline.arrRef spec0 w)) ↦{dat.share w} V (Pipeline.arrRef spec0 w)) := by
  rw [(arr_whole0 w).set_eq_univ, hG w]

/-- The pipeline's arrays, window by window, each a whole buffer at the window's share. -/
theorem arrays0_eq (c : Dev nD) (dat : Dat τ (Elt F) Unit ℕ (UR sig nD τ) ℕ cfg0 c)
    (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (dat.arrays G : sProp 𝕄)
      = iprop((((c : Thread nD τ).loc main_arg0) ↦{dat.share 0} V main_arg0) ∗ (((c : Thread nD τ).loc main_arg0) ↦{dat.share 1} V main_arg0)
          ∗ (((c : Thread nD τ).loc main_arg1) ↦{dat.share 2} V main_arg1)
          ∗ (((c : Thread nD τ).loc main_v0) ↦{dat.share 3} V main_v0) ∗ (((c : Thread nD τ).loc main_arg3) ↦{dat.share 4} V main_arg3)
          ∗ (((c : Thread nD τ).loc main_v1) ↦{dat.share 5} V main_v1) ∗ (((c : Thread nD τ).loc main_v2) ↦{dat.share 6} V main_v2)
          ∗ (((c : Thread nD τ).loc main_v4) ↦{dat.share 7} V main_v4) ∗ (((c : Thread nD τ).loc main_v5) ↦{dat.share 8} V main_v5)) := by
  unfold Dat.arrays
  rw [bigSep_W0, arr_eq c dat V G hG 0, arr_eq c dat V G hG 1, arr_eq c dat V G hG 2, arr_eq c dat V G hG 3, arr_eq c dat V G hG 4,
    arr_eq c dat V G hG 5, arr_eq c dat V G hG 6, arr_eq c dat V G hG 7, arr_eq c dat V G hG 8]

/-- The buffers behind the windows' arrays make the arrays of any proof data that holds the first array by halves
    at its two windows and every other array at the full share. -/
theorem arrays_of_bufs (c : Dev nD) (dat : Dat τ (Elt F) Unit ℕ (UR sig nD τ) ℕ cfg0 c)
    (h0 : dat.share 0 = fullShare.left) (h1 : dat.share 1 = fullShare.right) (h2 : dat.share 2 = fullShare)
    (h3 : dat.share 3 = fullShare) (h4 : dat.share 4 = fullShare) (h5 : dat.share 5 = fullShare)
    (h6 : dat.share 6 = fullShare) (h7 : dat.share 7 = fullShare) (h8 : dat.share 8 = fullShare)
    (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (Pipeline.arrBufs (Ix := Unit) (Name := ℕ) (U := UR sig nD τ) (Lvl := ℕ) spec0 c V : sProp 𝕄) ⊢ dat.arrays G := by
  rw [arrBufs0_eq, arrays0_eq c dat V G hG, h0, h1, h2, h3, h4, h5, h6, h7, h8]
  iintro ⟨H0, H1, H2, H3, H4, H5, H6, H7⟩
  ihave H0 := (pointsTo_share (PosShare.mem_left_op_right fullShare)).1 $$ H0
  icases H0 with ⟨H0l, H0r⟩
  isplitl [H0l]; · iexact H0l
  isplitl [H0r]; · iexact H0r
  isplitl [H1]; · iexact H1
  isplitl [H2]; · iexact H2
  isplitl [H3]; · iexact H3
  isplitl [H4]; · iexact H4
  isplitl [H5]; · iexact H5
  isplitl [H6]; · iexact H6
  iexact H7

variable (m : (ℓ : Loc nD τ sig) → Buf (Elt F) ℓ)

/-- The distinct buffers behind the nine windows' arrays, each whole at the full share at the entry contents, make
    the proof data's arrays at entry: the activation matrix's buffer is split into the two half shares its two
    windows hold, every other buffer is one window's array outright. -/
theorem hsplit (c : Dev nD) :
    (Pipeline.arrBufs (Ix := Unit) (Name := ℕ) (U := UR sig nD τ) (Lvl := ℕ) spec0 c (V m c) : sProp 𝕄)
      ⊢ (dats m 0 c).arrays fun w => (dats m 0 c).arrAt w 0 :=
  arrays_of_bufs c (dats m 0 c) (share0_0 m c) (share0_1 m c) (share0_2 m c) (share0_3 m c) (share0_4 m c) (share0_5 m c)
    (share0_6 m c) (share0_7 m c) (share0_8 m c) (V m c) (fun w => (dats m 0 c).arrAt w 0) (fun w => A_eq m c w)

end Cert.Kernel.Hand

end
-- ==== Proof.K.Tail.lean ====
import proofs.«114956_g19258633355276_cont_8to1_1994_22_alg».proof.Proof.K.Data
import Idealize.ShloMosaic.Lib.Pipeline.Kit
import Idealize.ShloMosaic.Lib.Pipeline.FrameSuffix
import Idealize.ShloMosaic.Lib.StableHlo.Run

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! After the region the program reads the output array, two slabs of 8192 rows of 128, as 16384 rows of 128 and
keeps the first 32 columns of each row. The two operations touch three buffers only: the output array, which they read, and two of the
buffers that bypass the region, which they write. Held together at the exit contents these three run through the
two operations; every other buffer, and the input arrays at their shares, stay as they are. -/

/-- The three buffers the two operations touch: the output array, its reading as rows, and the kept columns. -/
abbrev tailS : Finset (DevRef τ sig) := {Proc.devRef .tc main_v5, Proc.devRef .tc main_v6, Proc.devRef .tc main_v7}

/-- The region's exit contents: the output array at what the write-backs left, every other buffer as the region found it. -/
abbrev Wexit (c : Dev nD) : Valuation τ sig (Elt F) :=
  (StableHlo.nullary (τ := τ) main_v5 ((dats m 0 c).arrAt 8 cfg0.N)).result (V0 m c)

/-- The three buffers held at a valuation, one by one. -/
theorem held_tailS (c : Dev nD) (Wv : Valuation τ sig (Elt F)) :
    (StableHlo.held (c.tc : Thread nD τ) tailS Wv : sProp 𝕄)
      = iprop((((c.tc : Thread nD τ).loc main_v5) ↦{fullShare} Wv (Proc.devRef .tc main_v5))
          ∗ (((c.tc : Thread nD τ).loc main_v6) ↦{fullShare} Wv (Proc.devRef .tc main_v6))
          ∗ (((c.tc : Thread nD τ).loc main_v7) ↦{fullShare} Wv (Proc.devRef .tc main_v7))) := by
  unfold StableHlo.held
  rw [bigSep_insert (by
        simp only [Finset.mem_insert, Finset.mem_singleton, not_or]
        exact ⟨StableHlo.devRef_ne_of_ne (by decide), StableHlo.devRef_ne_of_ne (by decide)⟩),
      bigSep_insert (by
        simp only [Finset.mem_singleton]
        exact StableHlo.devRef_ne_of_ne (by decide)),
      bigSep_singleton]
  rfl

/-- The output window's points-to is the whole output buffer at the full share. -/
theorem arr8_eq (c : Dev nD) (X : Buf (Elt F) ((cfg0.win 8).arr.view.loc (c.tc : Thread nD τ))) :
    ((((cfg0.win 8).arr.view.loc (c.tc : Thread nD τ)) ↦[(cfg0.win 8).arr.view.set]{(dats m 0 c).share 8} X) : sProp 𝕄)
      = (((c.tc : Thread nD τ).loc main_v5) ↦{fullShare} X) := by
  have h : (cfg0.win 8).arr.view.set = Finset.univ := (arr_whole0 8).set_eq_univ
  rw [share0_8, h]

/-! The exit contents at the three buffers. -/
theorem Wexit_v5 (c : Dev nD) : Wexit m c (Proc.devRef .tc main_v5) = (dats m 0 c).arrAt 8 cfg0.N :=
  StableHlo.nullary_result ..
theorem Wexit_v6 (c : Dev nD) : Wexit m c (Proc.devRef .tc main_v6) = V m c main_v6 :=
  StableHlo.nullary_result_ne _ _ _ _ (by decide)
theorem Wexit_v7 (c : Dev nD) : Wexit m c (Proc.devRef .tc main_v7) = V m c main_v7 :=
  StableHlo.nullary_result_ne _ _ _ _ (by decide)

/-- The contents when the program returns are the exit contents after the two operations. -/
theorem after_Wexit (c : Dev nD) : StableHlo.after hostOps1 (Wexit m c) = Vend m c := rfl

/-- The two operations leave the output array alone. -/
theorem Vend_v5 (c : Dev nD) : Vend m c (Proc.devRef .tc main_v5) = (dats m 0 c).arrAt 8 cfg0.N := by
  unfold Vend
  simp only [hostOps1]
  after_results

/-- The three buffers at the exit contents: the output array, and the two others as the region found them. -/
theorem held_exit (c : Dev nD) :
    (StableHlo.held (c.tc : Thread nD τ) tailS (Wexit m c) : sProp 𝕄)
      = iprop((((c.tc : Thread nD τ).loc main_v5) ↦{fullShare} (dats m 0 c).arrAt 8 cfg0.N)
          ∗ (((c.tc : Thread nD τ).loc main_v6) ↦{fullShare} V m c main_v6)
          ∗ (((c.tc : Thread nD τ).loc main_v7) ↦{fullShare} V m c main_v7)) := by
  rw [held_tailS, Wexit_v5, Wexit_v6, Wexit_v7]

/-- The three buffers after the two operations: the output array unchanged, the two others at the final contents. -/
theorem held_after (c : Dev nD) :
    (StableHlo.held (c.tc : Thread nD τ) tailS (StableHlo.after hostOps1 (Wexit m c)) : sProp 𝕄)
      = iprop((((c.tc : Thread nD τ).loc main_v5) ↦{fullShare} (dats m 0 c).arrAt 8 cfg0.N)
          ∗ (((c.tc : Thread nD τ).loc main_v6) ↦{fullShare} Vend m c (Proc.devRef .tc main_v6))
          ∗ (((c.tc : Thread nD τ).loc main_v7) ↦{fullShare} Vend m c (Proc.devRef .tc main_v7))) := by
  rw [after_Wexit, held_tailS, Vend_v5]

/-! Nor any bypassing buffer but the two they write. -/
theorem Vend_rest {b : Ref sig .tc} (h5 : b ≠ main_v5) (h6 : b ≠ main_v6) (h7 : b ≠ main_v7) (c : Dev nD) :
    Vend m c (Proc.devRef .tc b) = V m c b := by
  unfold Vend
  simp only [hostOps1, StableHlo.after_cons, StableHlo.after_nil]
  rw [StableHlo.unary_result_ne _ _ _ _ _ _ h7, StableHlo.reshape_result_ne _ _ _ _ _ _ _ h6, StableHlo.nullary_result_ne _ _ _ _ h5]

/-- The two operations touch the three buffers only. -/
theorem hostOps1_tailS : ∀ op ∈ (hostOps1 : List (HloOp τ sig (Elt F))), op.bufs ⊆ tailS := by
  intro op hop
  simp only [hostOps1, List.mem_cons, List.mem_nil_iff, or_false] at hop
  rcases hop with rfl | rfl
  · rw [StableHlo.reshape_bufs]
    intro b hb
    simp only [Finset.mem_insert, Finset.mem_singleton] at hb ⊢
    rcases hb with rfl | rfl
    · exact Or.inl rfl
    · exact Or.inr (Or.inl rfl)
  · rw [StableHlo.unary_bufs]
    intro b hb
    simp only [Finset.mem_insert, Finset.mem_singleton] at hb ⊢
    rcases hb with rfl | rfl
    · exact Or.inr (Or.inl rfl)
    · exact Or.inr (Or.inr rfl)

/-- Neither allocates. -/
theorem hostOps1_fresh : ∀ op ∈ (hostOps1 : List (HloOp τ sig (Elt F))), op.fresh = ∅ := by
  intro op hop
  simp only [hostOps1, List.mem_cons, List.mem_nil_iff, or_false] at hop
  rcases hop with rfl | rfl <;> rfl

set_option backward.isDefEq.respectTransparency.types false in

/-- The two host operations after the region, run from the region's exit: holding the windows' arrays at their final
    contents (the output array outright, the inputs at their shares) and the bypassing buffers as the region found
    them, the operations read the output array and write two bypassing buffers; the arrays come back unchanged and the
    bypassing buffers at the exit contents after the two operations. -/
theorem htail (c : Dev nD) (Q' : PUnit → sProp 𝕄) :
    iprop((iprop(((dats m 0 c).arrays fun w => (dats m 0 c).arrAt w cfg0.N)
              ∗ Pipeline.unscopedRest spec0 c fun b => Vend m c (Proc.devRef .tc b)) -∗ Q' ⟨⟩)
        ∗ boundary (c.tc : Thread nD τ)
        ∗ ((dats m 0 c).arrays fun w => (dats m 0 c).arrAt w cfg0.N)
        ∗ Pipeline.unscopedRest spec0 c (V m c))
      ⊢ wp frame (wpE (Pipeline.defs (fun p => (cfgs p).toPCfg) (defs₀ (F := F))) (Variants.lift Variants.none) (c.tc : Thread nD τ) none)
          Set.univ (Pipeline.chain [StableHlo.seq hostOps1]) Q' := by
  rw [unscopedRest0_eq, unscopedRest0_eq]
  unfold Dat.arrays
  rw [bigSep_W0]
  beta_reduce
  rw [arr8_eq,
    Vend_rest m (b := main_arg2) (by decide) (by decide) (by decide), Vend_rest m (b := main_arg4) (by decide) (by decide) (by decide),
    Vend_rest m (b := main_arg5) (by decide) (by decide) (by decide), Vend_rest m (b := main_arg6) (by decide) (by decide) (by decide),
    Vend_rest m (b := main_c) (by decide) (by decide) (by decide), Vend_rest m (b := main_call0_v0) (by decide) (by decide) (by decide),
    Vend_rest m (b := main_c_0) (by decide) (by decide) (by decide), Vend_rest m (b := main_call1_v0) (by decide) (by decide) (by decide),
    Vend_rest m (b := main_v3) (by decide) (by decide) (by decide)]
  iintro ⟨Hk, Hb, ⟨H0, H1, H2, H3, H4, H5, H6, H7, H8⟩, R2, R4, R5, R6, Rc, Rv0, Rc0, Rv1, R3, Rv6, Rv7⟩
  rw [Pipeline.chain_cons]
  iapply (StableHlo.wp_seq (Variants.lift Variants.none) none Set.univ c tailS _ hostOps1 hostOps1_tailS hostOps1_fresh (Wexit m c)) $$ [Hb H8 Rv6 Rv7]
  · rw [held_exit]
    iframe
  iintro ⟨Hb, Hh⟩
  rw [Pipeline.chain_nil, wp_pure]
  imodintro
  icases (Entails.of_eq (held_after m c)) $$ Hh with ⟨H8, Rv6, Rv7⟩
  iapply Hk
  iframe

end Cert.Kernel.Hand

end
-- ==== Proof.K.Run.lean ====
import proofs.«114956_g19258633355276_cont_8to1_1994_22_alg».proof.Proof.K.Body
import proofs.«114956_g19258633355276_cont_8to1_1994_22_alg».proof.Proof.K.Split
import proofs.«114956_g19258633355276_cont_8to1_1994_22_alg».proof.Proof.K.Tail
import Idealize.ShloMosaic.Lib.Pipeline.Kit
import Idealize.ShloMosaic.Lib.Pipeline.FrameSuffix
import Idealize.ShloMosaic.Lib.StableHlo.Run

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.Tactic

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is the host operations before the region, the region, the two host operations after it: it reduces to the
    region continued by the later operations, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

set_option backward.isDefEq.respectTransparency.types false in
/-- From any memory with zero counters every weakly fair execution of @main terminates, and the final memory has every
    window's array at what the proof data computes and every other unscoped buffer at the exit contents: the launch of
    one region whose windows share an array, the two host operations after it run from the region's exit. -/
theorem run_main : θ_run defs (onTc (τ := τ) (main (F := F))) ⟨m, fun _ => 0, ρ⟩ (RunPost m) :=
  Pipeline.θ_run_region_noSem_pf_tail (fun p => (cfgs p).toPCfg) (fun p => (cfgs p).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none)
    (hsplit := hsplit m)
    (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (fun b => Vend m c (Proc.devRef .tc b)))
    (hX := fun c => by
      rw [Pipeline.unscopedRestP_none]
      iintro H
      isplitr
      · iempintro
      · iexact H)
    (hin := fun c => by
      dsimp only [dats]
      iintro _
      iempintro)
    (hout := fun c => by
      show (dats m 0 c).Φ _ ⊢ iprop(emp ∗ Pipeline.scopedRest spec0 c)
      rw [scopedRest0_eq]
      dsimp only [dats]
      iintro _
      isplitr <;> iempintro)
    (htail := htail m)
    (QY := fun c s => ∀ b ∈ Pipeline.restRefs sig spec0, s.mem ((c.tc : Thread nD τ).loc b) = Vend m c (Proc.devRef .tc b))
    (hY := fun c s' => by
      iintro ⟨-, HU, HSI⟩
      unfold Pipeline.unscopedRest
      imodintro
      iapply (pointsTo_read_all (Pipeline.restRefs sig spec0) (fun b => (c.tc : Thread nD τ).loc b) (fun b => Vend m c (Proc.devRef .tc b)) s')
      isplitl [HU] <;> iassumption)
    (hQ := fun s h c => ⟨(h c).1, (h c).2.2⟩)

end Cert.Kernel.Hand

end
-- ==== Proof.K.Entry.lean ====
import proofs.«114956_g19258633355276_cont_8to1_1994_22_alg».proof.Proof.K.Data
import Idealize.ShloMosaic.Lib.StableHlo.Run

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-! The host operations before the region write none of the program's arguments. -/
theorem V_main_arg0 (c : Dev nD) : V m c main_arg0 = m ((c : Thread nD τ).loc main_arg0) := by
  dsimp only [V, V0]
  simp only [hostOps0, hostOps0_1, hostOps0_2, hostOps0_3, hostOps0_4, List.flatten_cons, List.flatten_nil, List.append_nil, List.cons_append, List.nil_append]
  after_results
theorem V_main_arg1 (c : Dev nD) : V m c main_arg1 = m ((c : Thread nD τ).loc main_arg1) := by
  dsimp only [V, V0]
  simp only [hostOps0, hostOps0_1, hostOps0_2, hostOps0_3, hostOps0_4, List.flatten_cons, List.flatten_nil, List.append_nil, List.cons_append, List.nil_append]
  after_results
theorem V_main_arg2 (c : Dev nD) : V m c main_arg2 = m ((c : Thread nD τ).loc main_arg2) := by
  dsimp only [V, V0]
  simp only [hostOps0, hostOps0_1, hostOps0_2, hostOps0_3, hostOps0_4, List.flatten_cons, List.flatten_nil, List.append_nil, List.cons_append, List.nil_append]
  after_results
theorem V_main_arg3 (c : Dev nD) : V m c main_arg3 = m ((c : Thread nD τ).loc main_arg3) := by
  dsimp only [V, V0]
  simp only [hostOps0, hostOps0_1, hostOps0_2, hostOps0_3, hostOps0_4, List.flatten_cons, List.flatten_nil, List.append_nil, List.cons_append, List.nil_append]
  after_results
theorem V_main_arg4 (c : Dev nD) : V m c main_arg4 = m ((c : Thread nD τ).loc main_arg4) := by
  dsimp only [V, V0]
  simp only [hostOps0, hostOps0_1, hostOps0_2, hostOps0_3, hostOps0_4, List.flatten_cons, List.flatten_nil, List.append_nil, List.cons_append, List.nil_append]
  after_results
theorem V_main_arg5 (c : Dev nD) : V m c main_arg5 = m ((c : Thread nD τ).loc main_arg5) := by
  dsimp only [V, V0]
  simp only [hostOps0, hostOps0_1, hostOps0_2, hostOps0_3, hostOps0_4, List.flatten_cons, List.flatten_nil, List.append_nil, List.cons_append, List.nil_append]
  after_results
theorem V_main_arg6 (c : Dev nD) : V m c main_arg6 = m ((c : Thread nD τ).loc main_arg6) := by
  dsimp only [V, V0]
  simp only [hostOps0, hostOps0_1, hostOps0_2, hostOps0_3, hostOps0_4, List.flatten_cons, List.flatten_nil, List.append_nil, List.cons_append, List.nil_append]
  after_results

/-! Nor do the two host operations after the region, which also leave alone what the region does not touch. -/
theorem Vend_main_arg2 (c : Dev nD) : Vend m c (Proc.devRef .tc main_arg2) = m ((c : Thread nD τ).loc main_arg2) := by
  unfold Vend
  simp only [hostOps1]
  after_results
  exact V_main_arg2 m c
theorem Vend_main_arg4 (c : Dev nD) : Vend m c (Proc.devRef .tc main_arg4) = m ((c : Thread nD τ).loc main_arg4) := by
  unfold Vend
  simp only [hostOps1]
  after_results
  exact V_main_arg4 m c
theorem Vend_main_arg5 (c : Dev nD) : Vend m c (Proc.devRef .tc main_arg5) = m ((c : Thread nD τ).loc main_arg5) := by
  unfold Vend
  simp only [hostOps1]
  after_results
  exact V_main_arg5 m c
theorem Vend_main_arg6 (c : Dev nD) : Vend m c (Proc.devRef .tc main_arg6) = m ((c : Thread nD τ).loc main_arg6) := by
  unfold Vend
  simp only [hostOps1]
  after_results
  exact V_main_arg6 m c
/-- The program's result is the output array read as rows, its first thirty-two columns kept. -/
theorem Vend_main_v7 (c : Dev nD) : Vend m c (Proc.devRef .tc main_v7) = tailOut ((dats m 0 c).arrAt 8 cfg0.N) := by
  unfold Vend
  simp only [hostOps1]
  after_results
  rfl

/-! The window arrays the host operations before the region write, as functions of the arguments. -/
theorem V_main_v0 (c : Dev nD) : (V m c main_v0 : Vec F S1x256 .f32) = shapeCast S1x256 (m ((c : Thread nD τ).loc main_arg2)) shapeCasts_S256_S1x256 := by
  dsimp only [V, V0]
  simp only [hostOps0, hostOps0_1, hostOps0_2, hostOps0_3, hostOps0_4, List.flatten_cons, List.flatten_nil, List.append_nil, List.cons_append, List.nil_append]
  after_results
  rfl
theorem V_main_v1 (c : Dev nD) : (V m c main_v1 : Vec F S1x128 .f32) = shapeCast S1x128 (m ((c : Thread nD τ).loc main_arg4)) shapeCasts_S128_S1x128 := by
  dsimp only [V, V0]
  simp only [hostOps0, hostOps0_1, hostOps0_2, hostOps0_3, hostOps0_4, List.flatten_cons, List.flatten_nil, List.append_nil, List.cons_append, List.nil_append]
  after_results
  rfl
theorem V_main_v2 (c : Dev nD) : (V m c main_v2 : Vec F S128x128 .f32)
    = pad S128x128 ![0, 0] ![0, 96] ![0, 0] (m ((c : Thread nD τ).loc main_arg5)) (sitofp .f32 (constantI S_ 32 0#32)) pads_S128x32_S128x128_000_0960 h_S_ := by
  dsimp only [V, V0]
  simp only [hostOps0, hostOps0_1, hostOps0_2, hostOps0_3, hostOps0_4, List.flatten_cons, List.flatten_nil, List.append_nil, List.cons_append, List.nil_append]
  after_results
  rfl
theorem V_main_v4 (c : Dev nD) : (V m c main_v4 : Vec F S1x128 .f32)
    = shapeCast S1x128 (pad S128 ![0] ![96] ![0] (m ((c : Thread nD τ).loc main_arg6)) (sitofp .f32 (constantI S_ 32 0#32)) pads_S32_S128_0960 h_S_) shapeCasts_S128_S1x128 := by
  dsimp only [V, V0]
  simp only [hostOps0, hostOps0_1, hostOps0_2, hostOps0_3, hostOps0_4, List.flatten_cons, List.flatten_nil, List.append_nil, List.cons_append, List.nil_append]
  after_results
  rfl

end Cert.Kernel.Hand

end
-- ==== Proof.K.Frame.lean ====
import proofs.«114956_g19258633355276_cont_8to1_1994_22_alg».proof.Proof.K.Entry
import Idealize.ShloMosaic.Lib.Pipeline.Kit
import Idealize.ShloMosaic.Lib.Pipeline.Frame

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- From the run's post (every window's array at what the proof data computes, every other unscoped buffer at the exit
    contents) to the program's result and its unchanged arguments: an argument a window stages is an input array, never
    written; the other arguments no host operation writes; the result is the output array read as rows, its first
    thirty-two columns kept. -/
theorem value_of_run (h : θ_run defs (onTc (τ := τ) (main (F := F))) ⟨m, fun _ => 0, ρ⟩ (RunPost m)) :
    θ_run defs (onTc (τ := τ) (main (F := F))) ⟨m, fun _ => 0, ρ⟩ (fun r => ∀ c : Dev nD,
      r.2.mem ((c.tc : Thread nD τ).loc main_v7) = tailOut ((dats m 0 c).arrAt 8 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun _ hr c => ⟨?_, ?_, ?_, ?_, ?_, ?_, ?_, ?_⟩) h
  · exact ((hr c).2 main_v7 (Pipeline.mem_restRefs_of main_v7 (by decide) (by decide))).trans (Vend_main_v7 m c)
  · exact ((hr c).1 0).trans (((dats m 0 c).arrAt_in 0 rfl _).trans ((A_eq m c 0).trans (V_main_arg0 m c)))
  · exact ((hr c).1 2).trans (((dats m 0 c).arrAt_in 2 rfl _).trans ((A_eq m c 2).trans (V_main_arg1 m c)))
  · exact ((hr c).2 main_arg2 (Pipeline.mem_restRefs_of main_arg2 (by decide) (by decide))).trans (Vend_main_arg2 m c)
  · exact ((hr c).1 4).trans (((dats m 0 c).arrAt_in 4 rfl _).trans ((A_eq m c 4).trans (V_main_arg3 m c)))
  · exact ((hr c).2 main_arg4 (Pipeline.mem_restRefs_of main_arg4 (by decide) (by decide))).trans (Vend_main_arg4 m c)
  · exact ((hr c).2 main_arg5 (Pipeline.mem_restRefs_of main_arg5 (by decide) (by decide))).trans (Vend_main_arg5 m c)
  · exact ((hr c).2 main_arg6 (Pipeline.mem_restRefs_of main_arg6 (by decide) (by decide))).trans (Vend_main_arg6 m c)

/-- The frame: the program runs to the end and leaves its arguments unchanged. -/
theorem frame_of_run (h : θ_run defs (onTc (τ := τ) (main (F := F))) ⟨m, fun _ => 0, ρ⟩ (RunPost m)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (value_of_run m ρ h)

end Cert.Kernel.Hand

end
-- ==== Proof.KI.Data.lean ====
import proofs.«114956_g19258633355276_cont_8to1_1994_22_alg».proof.Proof.Gen.KernelIdeal.Launch
import proofs.«114956_g19258633355276_cont_8to1_1994_22_alg».proof.Proof.Gen.KernelIdeal.Skeleton
import proofs.«114956_g19258633355276_cont_8to1_1994_22_alg».proof.Proof.Gen.KernelIdeal.Points
import Idealize.ShloMosaic.Lib.Pipeline.FrameBody
import Idealize.ShloMosaic.Lib.Pipeline.FrameSuffix

/-! The proof data of the one pipeline: which contents each window's array has when the region is
entered, what every staging buffer holds after the body at each grid point, and at which share each
input array is held. The activation matrix is handed to the kernel twice (its upper and its lower
half of rows are two windows on one array), so the two windows hold complementary halves of that
array's share. -/

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The device's buffers when the region is entered: the launch contents after the host operations
    that precede the region (two bias reshapes, the zero padding of the last layer's weight and bias). -/
abbrev V0 (c : Dev nD) : Valuation τ sig (Elt F) :=
  StableHlo.after (List.flatten [hostOps0, hostOps0_1, hostOps0_2, hostOps0_3, hostOps0_4]) (fun b => m (c, b))

/-- The same, read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole-buffer rectangles the body loads through. -/
abbrev rX : Rect S2048x512 := Rect.unit (s := S2048x512) ![0, 0] S2048x512.size inb_S2048x512_S2048x512_0_0
abbrev rW1 : Rect S512x256 := Rect.unit (s := S512x256) ![0, 0] S512x256.size inb_S512x256_S512x256_0_0
abbrev rB1 : Rect S1x256 := Rect.unit (s := S1x256) ![0, 0] S1x256.size inb_S1x256_S1x256_0_0
abbrev rW2 : Rect S256x128 := Rect.unit (s := S256x128) ![0, 0] S256x128.size inb_S256x128_S256x128_0_0
abbrev rB2 : Rect S1x128 := Rect.unit (s := S1x128) ![0, 0] S1x128.size inb_S1x128_S1x128_0_0
abbrev rW3 : Rect S128x128 := Rect.unit (s := S128x128) ![0, 0] S128x128.size inb_S128x128_S128x128_0_0
/-- The two halves of the output block: slab 0 and slab 1 of its leading axis. -/
abbrev rLo : Rect S2x2048x128 := Rect.unit (s := S2x2048x128) ![0, 0, 0] S1x2048x128.size inb_S2x2048x128_S1x2048x128_0_0_0
abbrev rHi : Rect S2x2048x128 := Rect.unit (s := S2x2048x128) ![1, 0, 0] S1x2048x128.size inb_S2x2048x128_S1x2048x128_1_0_0

/-- What the body leaves in the output window's staging buffer, from the input blocks: slab 0 is the
    three-layer network applied to the rows of the first activation block, slab 1 to those of the second
    (the later store first). -/
def outBlock (xa xb : Vec F S2048x512 .f32) (w1 : Vec F S512x256 .f32) (b1 : Vec F S1x256 .f32) (w2 : Vec F S256x128 .f32)
    (b2 : Vec F S1x128 .f32) (w3 : Vec F S128x128 .f32) (b3 : Vec F S1x128 .f32) : Vec F S2x2048x128 .f32 :=
  View.canon [⟨rHi, k0_pay1 (k0_pay2 (View.ld w1 rW1)) (k0_pay3 (View.ld w2 rW2)) (k0_pay4 (View.ld w3 rW3)) (k0_pay5 (View.ld b1 rB1))
                (k0_pay6 (View.ld b2 rB2)) (k0_pay7 (View.ld b3 rB2)) (View.ld xb rX)⟩,
              ⟨rLo, k0_pay8 (View.ld w1 rW1) (View.ld w2 rW2) (View.ld w3 rW3) (View.ld b1 rB1) (View.ld b2 rB2) (View.ld b3 rB2) (View.ld xa rX)⟩]

/-- The proof data: the arrays as the region finds them; after the body each input's buffer at its block
    and the output's at `outBlock` of the input blocks; no invariant, nothing owed; the two windows on the
    activation matrix hold the two halves of its share, every other input the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) :
    (dats m 0 c).after 8 t = outBlock (iblk m c 0 t) (iblk m c 1 t) (iblk m c 2 t) (iblk m c 3 t) (iblk m c 4 t) (iblk m c 5 t) (iblk m c 6 t) (iblk m c 7 t) := by
  dsimp only [dats]

theorem share0_0 (c : Dev nD) : (dats m 0 c).share 0 = fullShare.left := rfl
theorem share0_1 (c : Dev nD) : (dats m 0 c).share 1 = fullShare.right := rfl
theorem share0_2 (c : Dev nD) : (dats m 0 c).share 2 = fullShare := rfl
theorem share0_3 (c : Dev nD) : (dats m 0 c).share 3 = fullShare := rfl
theorem share0_4 (c : Dev nD) : (dats m 0 c).share 4 = fullShare := rfl
theorem share0_5 (c : Dev nD) : (dats m 0 c).share 5 = fullShare := rfl
theorem share0_6 (c : Dev nD) : (dats m 0 c).share 6 = fullShare := rfl
theorem share0_7 (c : Dev nD) : (dats m 0 c).share 7 = fullShare := rfl
theorem share0_8 (c : Dev nD) : (dats m 0 c).share 8 = fullShare := rfl

/-! ## After the region -/

/-- The device's buffers when the program returns: the region's exit contents — the output array at what the
    write-backs left, every other buffer as the region found it — after the two host operations that follow the
    region (the output read as sixteen thousand rows, then its first thirty-two columns kept). -/
def Vend (c : Dev nD) : Valuation τ sig (Elt F) :=
  StableHlo.after hostOps1 ((StableHlo.nullary (τ := τ) main_v5 ((dats m 0 c).arrAt 8 cfg0.N)).result (V0 m c))

/-- What the two host operations after the region make of the output array. -/
def tailOut (Y : Vec F S2x8192x128 .f32) : Vec F S16384x32 .f32 :=
  extractStridedSlice S16384x32 ![0, 0] (shapeCast S16384x128 Y shapeCasts_S2x8192x128_S16384x128) slices_S16384x128_S16384x32_0_0

/-- What the run establishes of the final memory: every window's array at what the library computes from the
    proof data, every other unscoped buffer at `Vend`. -/
def RunPost (r : PUnit × MemSt nD τ sig (Elt F)) : Prop :=
  ∀ c : Dev nD,
    (∀ w : Fin cfg0.W, r.2.mem ((cfg0.win w).arr.view.loc (c.tc : Thread nD τ)) = (dats m 0 c).arrAt w cfg0.N)
    ∧ (∀ b ∈ Pipeline.restRefs sig spec0, r.2.mem ((c.tc : Thread nD τ).loc b) = Vend m c (Proc.devRef .tc b))

end Cert.KernelIdeal.Hand

end
-- ==== Proof.KI.Body.lean ====
import proofs.«114956_g19258633355276_cont_8to1_1994_22_alg».proof.Proof.KI.Data
import Idealize.ShloMosaic.Lib.Ring
import Idealize.ShloMosaic.Lib.Tactic

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.Tactic

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each input window's current buffer holds

An input window's body leaves its block where it found it, no window is cut and none is ever idle, so at every
point the current staging buffer of each of the eight inputs holds that point's block of its array: freshly
fetched there, or (for the six weights and biases after the first point) still there from the fetch at the first
point, the block index not having moved. -/

theorem before0_0 (c : Dev nD) (t : Fin cfg0.N) (d) : (dats m 0 c).before 0 t d = iblk m c 0 t := by
  have hkeep : ∀ t, (cfg0.win 0).cut (cfg0.grid.coords t) ((dats m 0 c).after 0 t) = (dats m 0 c).blockOf 0 t := fun t => by
    rw [after0_0]; unfold Dat.blockOf iblk; rw [A_eq]; try rfl
  rw [(dats m 0 c).before_in_eq_fetched 0 rfl (fun _ => rfl) (fun _ _ _ => rfl) hkeep t d]
  unfold Dat.fetched Dat.blockOf iblk; rw [A_eq]; try rfl

theorem before0_1 (c : Dev nD) (t : Fin cfg0.N) (d) : (dats m 0 c).before 1 t d = iblk m c 1 t := by
  have hkeep : ∀ t, (cfg0.win 1).cut (cfg0.grid.coords t) ((dats m 0 c).after 1 t) = (dats m 0 c).blockOf 1 t := fun t => by
    rw [after0_1]; unfold Dat.blockOf iblk; rw [A_eq]; try rfl
  rw [(dats m 0 c).before_in_eq_fetched 1 rfl (fun _ => rfl) (fun _ _ _ => rfl) hkeep t d]
  unfold Dat.fetched Dat.blockOf iblk; rw [A_eq]; try rfl

theorem before0_2 (c : Dev nD) (t : Fin cfg0.N) (d) : (dats m 0 c).before 2 t d = iblk m c 2 t := by
  have hkeep : ∀ t, (cfg0.win 2).cut (cfg0.grid.coords t) ((dats m 0 c).after 2 t) = (dats m 0 c).blockOf 2 t := fun t => by
    rw [after0_2]; unfold Dat.blockOf iblk; rw [A_eq]; try rfl
  rw [(dats m 0 c).before_in_eq_fetched 2 rfl (fun _ => rfl) (fun _ _ _ => rfl) hkeep t d]
  unfold Dat.fetched Dat.blockOf iblk; rw [A_eq]; try rfl

theorem before0_3 (c : Dev nD) (t : Fin cfg0.N) (d) : (dats m 0 c).before 3 t d = iblk m c 3 t := by
  have hkeep : ∀ t, (cfg0.win 3).cut (cfg0.grid.coords t) ((dats m 0 c).after 3 t) = (dats m 0 c).blockOf 3 t := fun t => by
    rw [after0_3]; unfold Dat.blockOf iblk; rw [A_eq]; try rfl
  rw [(dats m 0 c).before_in_eq_fetched 3 rfl (fun _ => rfl) (fun _ _ _ => rfl) hkeep t d]
  unfold Dat.fetched Dat.blockOf iblk; rw [A_eq]; try rfl

theorem before0_4 (c : Dev nD) (t : Fin cfg0.N) (d) : (dats m 0 c).before 4 t d = iblk m c 4 t := by
  have hkeep : ∀ t, (cfg0.win 4).cut (cfg0.grid.coords t) ((dats m 0 c).after 4 t) = (dats m 0 c).blockOf 4 t := fun t => by
    rw [after0_4]; unfold Dat.blockOf iblk; rw [A_eq]; try rfl
  rw [(dats m 0 c).before_in_eq_fetched 4 rfl (fun _ => rfl) (fun _ _ _ => rfl) hkeep t d]
  unfold Dat.fetched Dat.blockOf iblk; rw [A_eq]; try rfl

theorem before0_5 (c : Dev nD) (t : Fin cfg0.N) (d) : (dats m 0 c).before 5 t d = iblk m c 5 t := by
  have hkeep : ∀ t, (cfg0.win 5).cut (cfg0.grid.coords t) ((dats m 0 c).after 5 t) = (dats m 0 c).blockOf 5 t := fun t => by
    rw [after0_5]; unfold Dat.blockOf iblk; rw [A_eq]; try rfl
  rw [(dats m 0 c).before_in_eq_fetched 5 rfl (fun _ => rfl) (fun _ _ _ => rfl) hkeep t d]
  unfold Dat.fetched Dat.blockOf iblk; rw [A_eq]; try rfl

theorem before0_6 (c : Dev nD) (t : Fin cfg0.N) (d) : (dats m 0 c).before 6 t d = iblk m c 6 t := by
  have hkeep : ∀ t, (cfg0.win 6).cut (cfg0.grid.coords t) ((dats m 0 c).after 6 t) = (dats m 0 c).blockOf 6 t := fun t => by
    rw [after0_6]; unfold Dat.blockOf iblk; rw [A_eq]; try rfl
  rw [(dats m 0 c).before_in_eq_fetched 6 rfl (fun _ => rfl) (fun _ _ _ => rfl) hkeep t d]
  unfold Dat.fetched Dat.blockOf iblk; rw [A_eq]; try rfl

theorem before0_7 (c : Dev nD) (t : Fin cfg0.N) (d) : (dats m 0 c).before 7 t d = iblk m c 7 t := by
  have hkeep : ∀ t, (cfg0.win 7).cut (cfg0.grid.coords t) ((dats m 0 c).after 7 t) = (dats m 0 c).blockOf 7 t := fun t => by
    rw [after0_7]; unfold Dat.blockOf iblk; rw [A_eq]; try rfl
  rw [(dats m 0 c).before_in_eq_fetched 7 rfl (fun _ => rfl) (fun _ _ _ => rfl) hkeep t d]
  unfold Dat.fetched Dat.blockOf iblk; rw [A_eq]; try rfl

/-! ## The two stores cover the output buffer

Slab 1 and slab 0 of the leading axis tile the `2 × 2048 × 128` block. -/

theorem cover_out (pHi pLo : Vec F S1x2048x128 .f32) (y : S2x2048x128.Idx) :
    ∃ pc ∈ ([⟨rHi, pHi⟩, ⟨rLo, pLo⟩] : List (View.Piece (Elt F) S2x2048x128 .f32)), y ∈ pc.1.set :=
  View.cover_of_tiled [⟨rHi, pHi⟩, ⟨rLo, pLo⟩] S1x2048x128.size (by rfl) y

/-! ## The body's triple -/

set_option maxHeartbeats 1000000 in
/-- The kernel function on whole staging memrefs — the eight inputs' at given contents, the output's at anything — runs
    to the continuation with the inputs' as they were and the output's at `outBlock` of the inputs'. The function reads
    the six weights and biases and the first activation block, reads slab 0 of the output (the value unused) and stores
    the network's value on the first block there, reads the second activation block, reads slab 1 of the output (unused
    again) and stores the network's value on the second block there. -/
theorem sound_kernel (c : Dev nD) (E : Set ℕ) (i : grid0.Coords) (a1 : Memref sig .tc .vmem S2048x512 .f32) (h1 : a1.IsWhole) (a2 : Memref sig .tc .vmem S2048x512 .f32) (h2 : a2.IsWhole) (a3 : Memref sig .tc .vmem S512x256 .f32) (h3 : a3.IsWhole) (a4 : Memref sig .tc .vmem S1x256 .f32) (h4 : a4.IsWhole) (a5 : Memref sig .tc .vmem S256x128 .f32) (h5 : a5.IsWhole) (a6 : Memref sig .tc .vmem S1x128 .f32) (h6 : a6.IsWhole) (a7 : Memref sig .tc .vmem S128x128 .f32) (h7 : a7.IsWhole) (a8 : Memref sig .tc .vmem S1x128 .f32) (h8 : a8.IsWhole) (a9 : Memref sig .tc .vmem S2x2048x128 .f32) (h9 : a9.IsWhole)
    (xa xb : Vec F S2048x512 .f32) (w1 : Vec F S512x256 .f32) (b1 : Vec F S1x256 .f32) (w2 : Vec F S256x128 .f32)
    (b2 : Vec F S1x128 .f32) (w3 : Vec F S128x128 .f32) (b3 : Vec F S1x128 .f32) (K : PUnit → sProp 𝕄) :
    iprop(owns (c : Thread nD τ) a1 fullShare xa ∗ owns (c : Thread nD τ) a2 fullShare xb ∗ owns (c : Thread nD τ) a3 fullShare w1 ∗ owns (c : Thread nD τ) a4 fullShare b1 ∗ owns (c : Thread nD τ) a5 fullShare w2 ∗ owns (c : Thread nD τ) a6 fullShare b2 ∗ owns (c : Thread nD τ) a7 fullShare w3 ∗ owns (c : Thread nD τ) a8 fullShare b3 ∗ (∃ d, owns (c : Thread nD τ) a9 fullShare d)
        ∗ (iprop(owns (c : Thread nD τ) a1 fullShare xa ∗ owns (c : Thread nD τ) a2 fullShare xb ∗ owns (c : Thread nD τ) a3 fullShare w1 ∗ owns (c : Thread nD τ) a4 fullShare b1 ∗ owns (c : Thread nD τ) a5 fullShare w2 ∗ owns (c : Thread nD τ) a6 fullShare b2 ∗ owns (c : Thread nD τ) a7 fullShare w3 ∗ owns (c : Thread nD τ) a8 fullShare b3 ∗ owns (c : Thread nD τ) a9 fullShare (outBlock xa xb w1 b1 w2 b2 w3 b3)) -∗ K ⟨⟩))
      ⊢ wp frame (wpE (defs₀ (F := F)) Variants.none c none) E (cc0__mlp_block i a1 h1 a2 h2 a3 h3 a4 h4 a5 h5 a6 h6 a7 h7 a8 h8 a9 h9) K := by
  simp only [cc0__mlp_block_eq_skeleton]; unfold cc0__mlp_block_skel
  simp only [k0_part1_eq_skeleton]; unfold k0_part1_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, Hk⟩
  subst e1 e2 e3 e4 e5 e6 e7 e8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  unfold outBlock
  exact View.read_writes_eq_canon _ _ _ (cover_out _ _)

/-! ## The body obligation, at a generic point -/

/-- What the body is handed at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- At any point the eight inputs' buffers hold their blocks, so the kernel's triple applies at those blocks; the
    invariant and what the core owes are not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Split.lean ====
import proofs.«114956_g19258633355276_cont_8to1_1994_22_alg».proof.Proof.KI.Data
import Idealize.ShloMosaic.Lib.Pipeline.Kit
import Idealize.ShloMosaic.Lib.Pipeline.Launch

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The distinct buffers behind the nine windows' arrays, listed. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_arg1) ↦{fullShare} V main_arg1)
          ∗ (((c : Thread nD τ).loc main_v0) ↦{fullShare} V main_v0) ∗ (((c : Thread nD τ).loc main_arg3) ↦{fullShare} V main_arg3)
          ∗ (((c : Thread nD τ).loc main_v1) ↦{fullShare} V main_v1) ∗ (((c : Thread nD τ).loc main_v2) ↦{fullShare} V main_v2)
          ∗ (((c : Thread nD τ).loc main_v4) ↦{fullShare} V main_v4) ∗ (((c : Thread nD τ).loc main_v5) ↦{fullShare} V main_v5)) := by
  unfold Pipeline.arrBufs
  exact bigSep_eq_bigSepL_of_eq [main_arg0, main_arg1, main_v0, main_arg3, main_v1, main_v2, main_v4, main_v5] (by decide) (by decide) _

/-- One window's array in the pipeline's form is its whole buffer at the window's share. -/
theorem arr_eq (c : Dev nD) (dat : Dat τ (Elt F) Unit ℕ (UR sig nD τ) ℕ cfg0 c)
    (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) (w : Fin cfg0.W) :
    ((cfg0.win w).arr.view.loc (c : Thread nD τ) ↦[(cfg0.win w).arr.view.set]{dat.share w} G w : sProp 𝕄)
      = (((c : Thread nD τ).loc (Pipeline.arrRef spec0 w)) ↦{dat.share w} V (Pipeline.arrRef spec0 w)) := by
  rw [(arr_whole0 w).set_eq_univ, hG w]

/-- The pipeline's arrays, window by window, each a whole buffer at the window's share. -/
theorem arrays0_eq (c : Dev nD) (dat : Dat τ (Elt F) Unit ℕ (UR sig nD τ) ℕ cfg0 c)
    (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (dat.arrays G : sProp 𝕄)
      = iprop((((c : Thread nD τ).loc main_arg0) ↦{dat.share 0} V main_arg0) ∗ (((c : Thread nD τ).loc main_arg0) ↦{dat.share 1} V main_arg0)
          ∗ (((c : Thread nD τ).loc main_arg1) ↦{dat.share 2} V main_arg1)
          ∗ (((c : Thread nD τ).loc main_v0) ↦{dat.share 3} V main_v0) ∗ (((c : Thread nD τ).loc main_arg3) ↦{dat.share 4} V main_arg3)
          ∗ (((c : Thread nD τ).loc main_v1) ↦{dat.share 5} V main_v1) ∗ (((c : Thread nD τ).loc main_v2) ↦{dat.share 6} V main_v2)
          ∗ (((c : Thread nD τ).loc main_v4) ↦{dat.share 7} V main_v4) ∗ (((c : Thread nD τ).loc main_v5) ↦{dat.share 8} V main_v5)) := by
  unfold Dat.arrays
  rw [bigSep_W0, arr_eq c dat V G hG 0, arr_eq c dat V G hG 1, arr_eq c dat V G hG 2, arr_eq c dat V G hG 3, arr_eq c dat V G hG 4,
    arr_eq c dat V G hG 5, arr_eq c dat V G hG 6, arr_eq c dat V G hG 7, arr_eq c dat V G hG 8]

/-- The buffers behind the windows' arrays make the arrays of any proof data that holds the first array by halves
    at its two windows and every other array at the full share. -/
theorem arrays_of_bufs (c : Dev nD) (dat : Dat τ (Elt F) Unit ℕ (UR sig nD τ) ℕ cfg0 c)
    (h0 : dat.share 0 = fullShare.left) (h1 : dat.share 1 = fullShare.right) (h2 : dat.share 2 = fullShare)
    (h3 : dat.share 3 = fullShare) (h4 : dat.share 4 = fullShare) (h5 : dat.share 5 = fullShare)
    (h6 : dat.share 6 = fullShare) (h7 : dat.share 7 = fullShare) (h8 : dat.share 8 = fullShare)
    (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (Pipeline.arrBufs (Ix := Unit) (Name := ℕ) (U := UR sig nD τ) (Lvl := ℕ) spec0 c V : sProp 𝕄) ⊢ dat.arrays G := by
  rw [arrBufs0_eq, arrays0_eq c dat V G hG, h0, h1, h2, h3, h4, h5, h6, h7, h8]
  iintro ⟨H0, H1, H2, H3, H4, H5, H6, H7⟩
  ihave H0 := (pointsTo_share (PosShare.mem_left_op_right fullShare)).1 $$ H0
  icases H0 with ⟨H0l, H0r⟩
  isplitl [H0l]; · iexact H0l
  isplitl [H0r]; · iexact H0r
  isplitl [H1]; · iexact H1
  isplitl [H2]; · iexact H2
  isplitl [H3]; · iexact H3
  isplitl [H4]; · iexact H4
  isplitl [H5]; · iexact H5
  isplitl [H6]; · iexact H6
  iexact H7

variable (m : (ℓ : Loc nD τ sig) → Buf (Elt F) ℓ)

/-- The distinct buffers behind the nine windows' arrays, each whole at the full share at the entry contents, make
    the proof data's arrays at entry: the activation matrix's buffer is split into the two half shares its two
    windows hold, every other buffer is one window's array outright. -/
theorem hsplit (c : Dev nD) :
    (Pipeline.arrBufs (Ix := Unit) (Name := ℕ) (U := UR sig nD τ) (Lvl := ℕ) spec0 c (V m c) : sProp 𝕄)
      ⊢ (dats m 0 c).arrays fun w => (dats m 0 c).arrAt w 0 :=
  arrays_of_bufs c (dats m 0 c) (share0_0 m c) (share0_1 m c) (share0_2 m c) (share0_3 m c) (share0_4 m c) (share0_5 m c)
    (share0_6 m c) (share0_7 m c) (share0_8 m c) (V m c) (fun w => (dats m 0 c).arrAt w 0) (fun w => A_eq m c w)

end Cert.KernelIdeal.Hand

end
-- ==== Proof.KI.Tail.lean ====
import proofs.«114956_g19258633355276_cont_8to1_1994_22_alg».proof.Proof.KI.Data
import Idealize.ShloMosaic.Lib.Pipeline.Kit
import Idealize.ShloMosaic.Lib.Pipeline.FrameSuffix
import Idealize.ShloMosaic.Lib.StableHlo.Run

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! After the region the program reads the output array, two slabs of 8192 rows of 128, as 16384 rows of 128 and
keeps the first 32 columns of each row. The two operations touch three buffers only: the output array, which they read, and two of the
buffers that bypass the region, which they write. Held together at the exit contents these three run through the
two operations; every other buffer, and the input arrays at their shares, stay as they are. -/

/-- The three buffers the two operations touch: the output array, its reading as rows, and the kept columns. -/
abbrev tailS : Finset (DevRef τ sig) := {Proc.devRef .tc main_v5, Proc.devRef .tc main_v6, Proc.devRef .tc main_v7}

/-- The region's exit contents: the output array at what the write-backs left, every other buffer as the region found it. -/
abbrev Wexit (c : Dev nD) : Valuation τ sig (Elt F) :=
  (StableHlo.nullary (τ := τ) main_v5 ((dats m 0 c).arrAt 8 cfg0.N)).result (V0 m c)

/-- The three buffers held at a valuation, one by one. -/
theorem held_tailS (c : Dev nD) (Wv : Valuation τ sig (Elt F)) :
    (StableHlo.held (c.tc : Thread nD τ) tailS Wv : sProp 𝕄)
      = iprop((((c.tc : Thread nD τ).loc main_v5) ↦{fullShare} Wv (Proc.devRef .tc main_v5))
          ∗ (((c.tc : Thread nD τ).loc main_v6) ↦{fullShare} Wv (Proc.devRef .tc main_v6))
          ∗ (((c.tc : Thread nD τ).loc main_v7) ↦{fullShare} Wv (Proc.devRef .tc main_v7))) := by
  unfold StableHlo.held
  rw [bigSep_insert (by
        simp only [Finset.mem_insert, Finset.mem_singleton, not_or]
        exact ⟨StableHlo.devRef_ne_of_ne (by decide), StableHlo.devRef_ne_of_ne (by decide)⟩),
      bigSep_insert (by
        simp only [Finset.mem_singleton]
        exact StableHlo.devRef_ne_of_ne (by decide)),
      bigSep_singleton]
  rfl

/-- The output window's points-to is the whole output buffer at the full share. -/
theorem arr8_eq (c : Dev nD) (X : Buf (Elt F) ((cfg0.win 8).arr.view.loc (c.tc : Thread nD τ))) :
    ((((cfg0.win 8).arr.view.loc (c.tc : Thread nD τ)) ↦[(cfg0.win 8).arr.view.set]{(dats m 0 c).share 8} X) : sProp 𝕄)
      = (((c.tc : Thread nD τ).loc main_v5) ↦{fullShare} X) := by
  have h : (cfg0.win 8).arr.view.set = Finset.univ := (arr_whole0 8).set_eq_univ
  rw [share0_8, h]

/-! The exit contents at the three buffers. -/
theorem Wexit_v5 (c : Dev nD) : Wexit m c (Proc.devRef .tc main_v5) = (dats m 0 c).arrAt 8 cfg0.N :=
  StableHlo.nullary_result ..
theorem Wexit_v6 (c : Dev nD) : Wexit m c (Proc.devRef .tc main_v6) = V m c main_v6 :=
  StableHlo.nullary_result_ne _ _ _ _ (by decide)
theorem Wexit_v7 (c : Dev nD) : Wexit m c (Proc.devRef .tc main_v7) = V m c main_v7 :=
  StableHlo.nullary_result_ne _ _ _ _ (by decide)

/-- The contents when the program returns are the exit contents after the two operations. -/
theorem after_Wexit (c : Dev nD) : StableHlo.after hostOps1 (Wexit m c) = Vend m c := rfl

/-- The two operations leave the output array alone. -/
theorem Vend_v5 (c : Dev nD) : Vend m c (Proc.devRef .tc main_v5) = (dats m 0 c).arrAt 8 cfg0.N := by
  unfold Vend
  simp only [hostOps1]
  after_results

/-- The three buffers at the exit contents: the output array, and the two others as the region found them. -/
theorem held_exit (c : Dev nD) :
    (StableHlo.held (c.tc : Thread nD τ) tailS (Wexit m c) : sProp 𝕄)
      = iprop((((c.tc : Thread nD τ).loc main_v5) ↦{fullShare} (dats m 0 c).arrAt 8 cfg0.N)
          ∗ (((c.tc : Thread nD τ).loc main_v6) ↦{fullShare} V m c main_v6)
          ∗ (((c.tc : Thread nD τ).loc main_v7) ↦{fullShare} V m c main_v7)) := by
  rw [held_tailS, Wexit_v5, Wexit_v6, Wexit_v7]

/-- The three buffers after the two operations: the output array unchanged, the two others at the final contents. -/
theorem held_after (c : Dev nD) :
    (StableHlo.held (c.tc : Thread nD τ) tailS (StableHlo.after hostOps1 (Wexit m c)) : sProp 𝕄)
      = iprop((((c.tc : Thread nD τ).loc main_v5) ↦{fullShare} (dats m 0 c).arrAt 8 cfg0.N)
          ∗ (((c.tc : Thread nD τ).loc main_v6) ↦{fullShare} Vend m c (Proc.devRef .tc main_v6))
          ∗ (((c.tc : Thread nD τ).loc main_v7) ↦{fullShare} Vend m c (Proc.devRef .tc main_v7))) := by
  rw [after_Wexit, held_tailS, Vend_v5]

/-! Nor any bypassing buffer but the two they write. -/
theorem Vend_rest {b : Ref sig .tc} (h5 : b ≠ main_v5) (h6 : b ≠ main_v6) (h7 : b ≠ main_v7) (c : Dev nD) :
    Vend m c (Proc.devRef .tc b) = V m c b := by
  unfold Vend
  simp only [hostOps1, StableHlo.after_cons, StableHlo.after_nil]
  rw [StableHlo.unary_result_ne _ _ _ _ _ _ h7, StableHlo.reshape_result_ne _ _ _ _ _ _ _ h6, StableHlo.nullary_result_ne _ _ _ _ h5]

/-- The two operations touch the three buffers only. -/
theorem hostOps1_tailS : ∀ op ∈ (hostOps1 : List (HloOp τ sig (Elt F))), op.bufs ⊆ tailS := by
  intro op hop
  simp only [hostOps1, List.mem_cons, List.mem_nil_iff, or_false] at hop
  rcases hop with rfl | rfl
  · rw [StableHlo.reshape_bufs]
    intro b hb
    simp only [Finset.mem_insert, Finset.mem_singleton] at hb ⊢
    rcases hb with rfl | rfl
    · exact Or.inl rfl
    · exact Or.inr (Or.inl rfl)
  · rw [StableHlo.unary_bufs]
    intro b hb
    simp only [Finset.mem_insert, Finset.mem_singleton] at hb ⊢
    rcases hb with rfl | rfl
    · exact Or.inr (Or.inl rfl)
    · exact Or.inr (Or.inr rfl)

/-- Neither allocates. -/
theorem hostOps1_fresh : ∀ op ∈ (hostOps1 : List (HloOp τ sig (Elt F))), op.fresh = ∅ := by
  intro op hop
  simp only [hostOps1, List.mem_cons, List.mem_nil_iff, or_false] at hop
  rcases hop with rfl | rfl <;> rfl

set_option backward.isDefEq.respectTransparency.types false in

/-- The two host operations after the region, run from the region's exit: holding the windows' arrays at their final
    contents (the output array outright, the inputs at their shares) and the bypassing buffers as the region found
    them, the operations read the output array and write two bypassing buffers; the arrays come back unchanged and the
    bypassing buffers at the exit contents after the two operations. -/
theorem htail (c : Dev nD) (Q' : PUnit → sProp 𝕄) :
    iprop((iprop(((dats m 0 c).arrays fun w => (dats m 0 c).arrAt w cfg0.N)
              ∗ Pipeline.unscopedRest spec0 c fun b => Vend m c (Proc.devRef .tc b)) -∗ Q' ⟨⟩)
        ∗ boundary (c.tc : Thread nD τ)
        ∗ ((dats m 0 c).arrays fun w => (dats m 0 c).arrAt w cfg0.N)
        ∗ Pipeline.unscopedRest spec0 c (V m c))
      ⊢ wp frame (wpE (Pipeline.defs (fun p => (cfgs p).toPCfg) (defs₀ (F := F))) (Variants.lift Variants.none) (c.tc : Thread nD τ) none)
          Set.univ (Pipeline.chain [StableHlo.seq hostOps1]) Q' := by
  rw [unscopedRest0_eq, unscopedRest0_eq]
  unfold Dat.arrays
  rw [bigSep_W0]
  beta_reduce
  rw [arr8_eq,
    Vend_rest m (b := main_arg2) (by decide) (by decide) (by decide), Vend_rest m (b := main_arg4) (by decide) (by decide) (by decide),
    Vend_rest m (b := main_arg5) (by decide) (by decide) (by decide), Vend_rest m (b := main_arg6) (by decide) (by decide) (by decide),
    Vend_rest m (b := main_c) (by decide) (by decide) (by decide), Vend_rest m (b := main_call0_v0) (by decide) (by decide) (by decide),
    Vend_rest m (b := main_c_0) (by decide) (by decide) (by decide), Vend_rest m (b := main_call1_v0) (by decide) (by decide) (by decide),
    Vend_rest m (b := main_v3) (by decide) (by decide) (by decide)]
  iintro ⟨Hk, Hb, ⟨H0, H1, H2, H3, H4, H5, H6, H7, H8⟩, R2, R4, R5, R6, Rc, Rv0, Rc0, Rv1, R3, Rv6, Rv7⟩
  rw [Pipeline.chain_cons]
  iapply (StableHlo.wp_seq (Variants.lift Variants.none) none Set.univ c tailS _ hostOps1 hostOps1_tailS hostOps1_fresh (Wexit m c)) $$ [Hb H8 Rv6 Rv7]
  · rw [held_exit]
    iframe
  iintro ⟨Hb, Hh⟩
  rw [Pipeline.chain_nil, wp_pure]
  imodintro
  icases (Entails.of_eq (held_after m c)) $$ Hh with ⟨H8, Rv6, Rv7⟩
  iapply Hk
  iframe

end Cert.KernelIdeal.Hand

end
-- ==== Proof.KI.Run.lean ====
import proofs.«114956_g19258633355276_cont_8to1_1994_22_alg».proof.Proof.KI.Body
import proofs.«114956_g19258633355276_cont_8to1_1994_22_alg».proof.Proof.KI.Split
import proofs.«114956_g19258633355276_cont_8to1_1994_22_alg».proof.Proof.KI.Tail
import Idealize.ShloMosaic.Lib.Pipeline.Kit
import Idealize.ShloMosaic.Lib.Pipeline.FrameSuffix
import Idealize.ShloMosaic.Lib.StableHlo.Run

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.Tactic

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is the host operations before the region, the region, the two host operations after it: it reduces to the
    region continued by the later operations, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

set_option backward.isDefEq.respectTransparency.types false in
/-- From any memory with zero counters every weakly fair execution of @main terminates, and the final memory has every
    window's array at what the proof data computes and every other unscoped buffer at the exit contents: the launch of
    one region whose windows share an array, the two host operations after it run from the region's exit. -/
theorem run_main : θ_run defs (onTc (τ := τ) (main (F := F))) ⟨m, fun _ => 0, ρ⟩ (RunPost m) :=
  Pipeline.θ_run_region_noSem_pf_tail (fun p => (cfgs p).toPCfg) (fun p => (cfgs p).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none)
    (hsplit := hsplit m)
    (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (fun b => Vend m c (Proc.devRef .tc b)))
    (hX := fun c => by
      rw [Pipeline.unscopedRestP_none]
      iintro H
      isplitr
      · iempintro
      · iexact H)
    (hin := fun c => by
      dsimp only [dats]
      iintro _
      iempintro)
    (hout := fun c => by
      show (dats m 0 c).Φ _ ⊢ iprop(emp ∗ Pipeline.scopedRest spec0 c)
      rw [scopedRest0_eq]
      dsimp only [dats]
      iintro _
      isplitr <;> iempintro)
    (htail := htail m)
    (QY := fun c s => ∀ b ∈ Pipeline.restRefs sig spec0, s.mem ((c.tc : Thread nD τ).loc b) = Vend m c (Proc.devRef .tc b))
    (hY := fun c s' => by
      iintro ⟨-, HU, HSI⟩
      unfold Pipeline.unscopedRest
      imodintro
      iapply (pointsTo_read_all (Pipeline.restRefs sig spec0) (fun b => (c.tc : Thread nD τ).loc b) (fun b => Vend m c (Proc.devRef .tc b)) s')
      isplitl [HU] <;> iassumption)
    (hQ := fun s h c => ⟨(h c).1, (h c).2.2⟩)

end Cert.KernelIdeal.Hand

end
-- ==== Proof.KI.Entry.lean ====
import proofs.«114956_g19258633355276_cont_8to1_1994_22_alg».proof.Proof.KI.Data
import Idealize.ShloMosaic.Lib.StableHlo.Run

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-! The host operations before the region write none of the program's arguments. -/
theorem V_main_arg0 (c : Dev nD) : V m c main_arg0 = m ((c : Thread nD τ).loc main_arg0) := by
  dsimp only [V, V0]
  simp only [hostOps0, hostOps0_1, hostOps0_2, hostOps0_3, hostOps0_4, List.flatten_cons, List.flatten_nil, List.append_nil, List.cons_append, List.nil_append]
  after_results
theorem V_main_arg1 (c : Dev nD) : V m c main_arg1 = m ((c : Thread nD τ).loc main_arg1) := by
  dsimp only [V, V0]
  simp only [hostOps0, hostOps0_1, hostOps0_2, hostOps0_3, hostOps0_4, List.flatten_cons, List.flatten_nil, List.append_nil, List.cons_append, List.nil_append]
  after_results
theorem V_main_arg2 (c : Dev nD) : V m c main_arg2 = m ((c : Thread nD τ).loc main_arg2) := by
  dsimp only [V, V0]
  simp only [hostOps0, hostOps0_1, hostOps0_2, hostOps0_3, hostOps0_4, List.flatten_cons, List.flatten_nil, List.append_nil, List.cons_append, List.nil_append]
  after_results
theorem V_main_arg3 (c : Dev nD) : V m c main_arg3 = m ((c : Thread nD τ).loc main_arg3) := by
  dsimp only [V, V0]
  simp only [hostOps0, hostOps0_1, hostOps0_2, hostOps0_3, hostOps0_4, List.flatten_cons, List.flatten_nil, List.append_nil, List.cons_append, List.nil_append]
  after_results
theorem V_main_arg4 (c : Dev nD) : V m c main_arg4 = m ((c : Thread nD τ).loc main_arg4) := by
  dsimp only [V, V0]
  simp only [hostOps0, hostOps0_1, hostOps0_2, hostOps0_3, hostOps0_4, List.flatten_cons, List.flatten_nil, List.append_nil, List.cons_append, List.nil_append]
  after_results
theorem V_main_arg5 (c : Dev nD) : V m c main_arg5 = m ((c : Thread nD τ).loc main_arg5) := by
  dsimp only [V, V0]
  simp only [hostOps0, hostOps0_1, hostOps0_2, hostOps0_3, hostOps0_4, List.flatten_cons, List.flatten_nil, List.append_nil, List.cons_append, List.nil_append]
  after_results
theorem V_main_arg6 (c : Dev nD) : V m c main_arg6 = m ((c : Thread nD τ).loc main_arg6) := by
  dsimp only [V, V0]
  simp only [hostOps0, hostOps0_1, hostOps0_2, hostOps0_3, hostOps0_4, List.flatten_cons, List.flatten_nil, List.append_nil, List.cons_append, List.nil_append]
  after_results

/-! Nor do the two host operations after the region, which also leave alone what the region does not touch. -/
theorem Vend_main_arg2 (c : Dev nD) : Vend m c (Proc.devRef .tc main_arg2) = m ((c : Thread nD τ).loc main_arg2) := by
  unfold Vend
  simp only [hostOps1]
  after_results
  exact V_main_arg2 m c
theorem Vend_main_arg4 (c : Dev nD) : Vend m c (Proc.devRef .tc main_arg4) = m ((c : Thread nD τ).loc main_arg4) := by
  unfold Vend
  simp only [hostOps1]
  after_results
  exact V_main_arg4 m c
theorem Vend_main_arg5 (c : Dev nD) : Vend m c (Proc.devRef .tc main_arg5) = m ((c : Thread nD τ).loc main_arg5) := by
  unfold Vend
  simp only [hostOps1]
  after_results
  exact V_main_arg5 m c
theorem Vend_main_arg6 (c : Dev nD) : Vend m c (Proc.devRef .tc main_arg6) = m ((c : Thread nD τ).loc main_arg6) := by
  unfold Vend
  simp only [hostOps1]
  after_results
  exact V_main_arg6 m c
/-- The program's result is the output array read as rows, its first thirty-two columns kept. -/
theorem Vend_main_v7 (c : Dev nD) : Vend m c (Proc.devRef .tc main_v7) = tailOut ((dats m 0 c).arrAt 8 cfg0.N) := by
  unfold Vend
  simp only [hostOps1]
  after_results
  rfl

/-! The window arrays the host operations before the region write, as functions of the arguments. -/
theorem V_main_v0 (c : Dev nD) : (V m c main_v0 : Vec F S1x256 .f32) = shapeCast S1x256 (m ((c : Thread nD τ).loc main_arg2)) shapeCasts_S256_S1x256 := by
  dsimp only [V, V0]
  simp only [hostOps0, hostOps0_1, hostOps0_2, hostOps0_3, hostOps0_4, List.flatten_cons, List.flatten_nil, List.append_nil, List.cons_append, List.nil_append]
  after_results
  rfl
theorem V_main_v1 (c : Dev nD) : (V m c main_v1 : Vec F S1x128 .f32) = shapeCast S1x128 (m ((c : Thread nD τ).loc main_arg4)) shapeCasts_S128_S1x128 := by
  dsimp only [V, V0]
  simp only [hostOps0, hostOps0_1, hostOps0_2, hostOps0_3, hostOps0_4, List.flatten_cons, List.flatten_nil, List.append_nil, List.cons_append, List.nil_append]
  after_results
  rfl
theorem V_main_v2 (c : Dev nD) : (V m c main_v2 : Vec F S128x128 .f32)
    = pad S128x128 ![0, 0] ![0, 96] ![0, 0] (m ((c : Thread nD τ).loc main_arg5)) (sitofp .f32 (constantI S_ 32 0#32)) pads_S128x32_S128x128_000_0960 h_S_ := by
  dsimp only [V, V0]
  simp only [hostOps0, hostOps0_1, hostOps0_2, hostOps0_3, hostOps0_4, List.flatten_cons, List.flatten_nil, List.append_nil, List.cons_append, List.nil_append]
  after_results
  rfl
theorem V_main_v4 (c : Dev nD) : (V m c main_v4 : Vec F S1x128 .f32)
    = shapeCast S1x128 (pad S128 ![0] ![96] ![0] (m ((c : Thread nD τ).loc main_arg6)) (sitofp .f32 (constantI S_ 32 0#32)) pads_S32_S128_0960 h_S_) shapeCasts_S128_S1x128 := by
  dsimp only [V, V0]
  simp only [hostOps0, hostOps0_1, hostOps0_2, hostOps0_3, hostOps0_4, List.flatten_cons, List.flatten_nil, List.append_nil, List.cons_append, List.nil_append]
  after_results
  rfl

end Cert.KernelIdeal.Hand

end
-- ==== Proof.KI.Frame.lean ====
import proofs.«114956_g19258633355276_cont_8to1_1994_22_alg».proof.Proof.KI.Entry
import Idealize.ShloMosaic.Lib.Pipeline.Kit
import Idealize.ShloMosaic.Lib.Pipeline.Frame

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- From the run's post (every window's array at what the proof data computes, every other unscoped buffer at the exit
    contents) to the program's result and its unchanged arguments: an argument a window stages is an input array, never
    written; the other arguments no host operation writes; the result is the output array read as rows, its first
    thirty-two columns kept. -/
theorem value_of_run (h : θ_run defs (onTc (τ := τ) (main (F := F))) ⟨m, fun _ => 0, ρ⟩ (RunPost m)) :
    θ_run defs (onTc (τ := τ) (main (F := F))) ⟨m, fun _ => 0, ρ⟩ (fun r => ∀ c : Dev nD,
      r.2.mem ((c.tc : Thread nD τ).loc main_v7) = tailOut ((dats m 0 c).arrAt 8 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun _ hr c => ⟨?_, ?_, ?_, ?_, ?_, ?_, ?_, ?_⟩) h
  · exact ((hr c).2 main_v7 (Pipeline.mem_restRefs_of main_v7 (by decide) (by decide))).trans (Vend_main_v7 m c)
  · exact ((hr c).1 0).trans (((dats m 0 c).arrAt_in 0 rfl _).trans ((A_eq m c 0).trans (V_main_arg0 m c)))
  · exact ((hr c).1 2).trans (((dats m 0 c).arrAt_in 2 rfl _).trans ((A_eq m c 2).trans (V_main_arg1 m c)))
  · exact ((hr c).2 main_arg2 (Pipeline.mem_restRefs_of main_arg2 (by decide) (by decide))).trans (Vend_main_arg2 m c)
  · exact ((hr c).1 4).trans (((dats m 0 c).arrAt_in 4 rfl _).trans ((A_eq m c 4).trans (V_main_arg3 m c)))
  · exact ((hr c).2 main_arg4 (Pipeline.mem_restRefs_of main_arg4 (by decide) (by decide))).trans (Vend_main_arg4 m c)
  · exact ((hr c).2 main_arg5 (Pipeline.mem_restRefs_of main_arg5 (by decide) (by decide))).trans (Vend_main_arg5 m c)
  · exact ((hr c).2 main_arg6 (Pipeline.mem_restRefs_of main_arg6 (by decide) (by decide))).trans (Vend_main_arg6 m c)

/-- The frame: the program runs to the end and leaves its arguments unchanged. -/
theorem frame_of_run (h : θ_run defs (onTc (τ := τ) (main (F := F))) ⟨m, fun _ => 0, ρ⟩ (RunPost m)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (value_of_run m ρ h)

end Cert.KernelIdeal.Hand

end
-- ==== Proof.Spec.lean ====
import Idealize.ShloMosaic.PureOps.Ideal
import Idealize.ShloMosaic.PureOps.Ideal.Laws
import Idealize.ShloMosaic.Lib.ValueIdx

/-! The function both programs compute, over the extended reals: a three-layer perceptron applied to each
row of the activation matrix — two hidden layers `max (x · W + b) 0` and an affine output layer. It is
written row by row, and with the output layer's width a parameter: the kernel runs that layer 128 wide on a
zero-padded weight and bias and keeps the first 32 columns, the reference runs it 32 wide. The zero the two
hidden layers clamp at is the float literal both programs spell, kept as its binary word. -/

noncomputable section

open scoped BigOperators

namespace Cert.Mlp

open Idealize.ShloMosaic Idealize.ShloMosaic.ValueIdx

/-- The clamp value of the two hidden layers, as both programs write it. -/
abbrev zeroF : EReal := Ideal.ofBits .f32 0x00000000#32

/-- First hidden layer of one row: `max (∑ₖ xₖ · W1[k, j] + b1[j]) 0`. -/
def hid1 (xr : Fin 512 → EReal) (W1 : FVec Ideal ⟨2, ![512, 256]⟩ .f32) (b1 : Fin 256 → EReal) (j : Fin 256) : EReal :=
  max ((∑ k : Fin 512, xr k * W1 (ix2 k j)) + b1 j) zeroF

/-- Second hidden layer of one row, over the first. -/
def hid2 (xr : Fin 512 → EReal) (W1 : FVec Ideal ⟨2, ![512, 256]⟩ .f32) (b1 : Fin 256 → EReal)
    (W2 : FVec Ideal ⟨2, ![256, 128]⟩ .f32) (b2 : Fin 128 → EReal) (j : Fin 128) : EReal :=
  max ((∑ k : Fin 256, hid1 xr W1 b1 k * W2 (ix2 k j)) + b2 j) zeroF

/-- Output layer of one row, `n` wide, over the second hidden layer. -/
def outRow {n : Nat} (xr : Fin 512 → EReal) (W1 : FVec Ideal ⟨2, ![512, 256]⟩ .f32) (b1 : Fin 256 → EReal)
    (W2 : FVec Ideal ⟨2, ![256, 128]⟩ .f32) (b2 : Fin 128 → EReal)
    (W3 : FVec Ideal ⟨2, ![128, n]⟩ .f32) (b3 : Fin n → EReal) (j : Fin n) : EReal :=
  (∑ k : Fin 128, hid2 xr W1 b1 W2 b2 k * W3 (ix2 k j)) + b3 j

/-- The output layer reads only column `j` of its weight and entry `j` of its bias: two output layers of
    different widths agree at a column where their weights' columns and their biases' entries agree. -/
theorem outRow_congr {n n' : Nat} (xr : Fin 512 → EReal) (W1 : FVec Ideal ⟨2, ![512, 256]⟩ .f32) (b1 : Fin 256 → EReal)
    (W2 : FVec Ideal ⟨2, ![256, 128]⟩ .f32) (b2 : Fin 128 → EReal)
    (W3 : FVec Ideal ⟨2, ![128, n]⟩ .f32) (b3 : Fin n → EReal) (W3' : FVec Ideal ⟨2, ![128, n']⟩ .f32) (b3' : Fin n' → EReal)
    (j : Fin n) (j' : Fin n') (hW : ∀ k : Fin 128, W3 (ix2 k j) = W3' (ix2 k j')) (hb : b3 j = b3' j') :
    outRow xr W1 b1 W2 b2 W3 b3 j = outRow xr W1 b1 W2 b2 W3' b3' j' := by
  unfold outRow
  rw [hb]
  congr 1
  exact Finset.sum_congr rfl fun k _ => by rw [hW k]

/-- The whole result: row `i 0`, column `i 1`. -/
def G (x : FVec Ideal ⟨2, ![16384, 512]⟩ .f32) (W1 : FVec Ideal ⟨2, ![512, 256]⟩ .f32) (b1 : FVec Ideal ⟨1, ![256]⟩ .f32)
    (W2 : FVec Ideal ⟨2, ![256, 128]⟩ .f32) (b2 : FVec Ideal ⟨1, ![128]⟩ .f32)
    (W3 : FVec Ideal ⟨2, ![128, 32]⟩ .f32) (b3 : FVec Ideal ⟨1, ![32]⟩ .f32) : FVec Ideal ⟨2, ![16384, 32]⟩ .f32 := fun i =>
  outRow (fun k => x (ix2 (i 0) k)) W1 (fun j => b1 (ix1 j)) W2 (fun j => b2 (ix1 j)) W3 (fun j => b3 (ix1 j)) (i 1)

end Cert.Mlp

end
-- ==== Proof.KI.Payload.lean ====
import proofs.«114956_g19258633355276_cont_8to1_1994_22_alg».proof.Proof.KI.Data
import proofs.«114956_g19258633355276_cont_8to1_1994_22_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

namespace Payload

/-! The product of a 2048 × 512 matrix and a 512 × 256 matrix into the zero accumulator, entry by entry. -/
theorem lhs_mm1_0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem lhs_mm1_1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
theorem rhs_mm1_0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem rhs_mm1_1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl
theorem mm1_apply (h : FVec Ideal S2048x512 .bf16) (w : FVec Ideal S512x256 .bf16) (r : Fin 2048) (j : Fin 256) :
    matmul dot_S2048x512_S512x256_S2048x256_1_0_0_1_n_n none h w (constant (F := Ideal) S2048x256 .f32 0x00000000#32) (ix2 r j)
      = ∑ k : Fin 512, h (ix2 r k) * w (ix2 k j) := by
  simp only [matmul]
  rw [Ideal.matmul_constant_zero_apply, ← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 r j) ((contrEquiv1 dot_S2048x512_S512x256_S2048x256_1_0_0_1_n_n 512 rfl rfl).symm k) = ix2 r k := funext fun a => Fin.ext (by
    match a with
    | ⟨0, _⟩ => exact lhs_mm1_0 _ _
    | ⟨1, _⟩ => exact (lhs_mm1_1 _ _).trans hk)
  have er : dot_S2048x512_S512x256_S2048x256_1_0_0_1_n_n.rhsIdx (ix2 r j) ((contrEquiv1 dot_S2048x512_S512x256_S2048x256_1_0_0_1_n_n 512 rfl rfl).symm k) = ix2 k j := funext fun a => Fin.ext (by
    match a with
    | ⟨0, _⟩ => exact (rhs_mm1_0 _ _).trans hk
    | ⟨1, _⟩ => exact rhs_mm1_1 _ _)
  rw [el, er]

/-! The product of a 2048 × 256 matrix and a 256 × 128 matrix into the zero accumulator, entry by entry. -/
theorem lhs_mm2_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem lhs_mm2_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
theorem rhs_mm2_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
theorem rhs_mm2_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl
theorem mm2_apply (h : FVec Ideal S2048x256 .bf16) (w : FVec Ideal S256x128 .bf16) (r : Fin 2048) (j : Fin 128) :
    matmul dot_S2048x256_S256x128_S2048x128_1_0_0_1_n_n none h w (constant (F := Ideal) S2048x128 .f32 0x00000000#32) (ix2 r j)
      = ∑ k : Fin 256, h (ix2 r k) * w (ix2 k j) := by
  simp only [matmul]
  rw [Ideal.matmul_constant_zero_apply, ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 r j) ((contrEquiv1 dot_S2048x256_S256x128_S2048x128_1_0_0_1_n_n 256 rfl rfl).symm k) = ix2 r k := funext fun a => Fin.ext (by
    match a with
    | ⟨0, _⟩ => exact lhs_mm2_0 _ _
    | ⟨1, _⟩ => exact (lhs_mm2_1 _ _).trans hk)
  have er : dot_S2048x256_S256x128_S2048x128_1_0_0_1_n_n.rhsIdx (ix2 r j) ((contrEquiv1 dot_S2048x256_S256x128_S2048x128_1_0_0_1_n_n 256 rfl rfl).symm k) = ix2 k j := funext fun a => Fin.ext (by
    match a with
    | ⟨0, _⟩ => exact (rhs_mm2_0 _ _).trans hk
    | ⟨1, _⟩ => exact rhs_mm2_1 _ _)
  rw [el, er]

/-! The product of a 2048 × 128 matrix and a 128 × 128 matrix into the zero accumulator, entry by entry. -/
theorem lhs_mm3_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs_mm3_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhs_mm3_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhs_mm3_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl
theorem mm3_apply (h : FVec Ideal S2048x128 .bf16) (w : FVec Ideal S128x128 .bf16) (r : Fin 2048) (j : Fin 128) :
    matmul dot_S2048x128_S128x128_S2048x128_1_0_0_1_n_n none h w (constant (F := Ideal) S2048x128 .f32 0x00000000#32) (ix2 r j)
      = ∑ k : Fin 128, h (ix2 r k) * w (ix2 k j) := by
  simp only [matmul]
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 r j) ((contrEquiv1 dot_S2048x128_S128x128_S2048x128_1_0_0_1_n_n 128 rfl rfl).symm k) = ix2 r k := funext fun a => Fin.ext (by
    match a with
    | ⟨0, _⟩ => exact lhs_mm3_0 _ _
    | ⟨1, _⟩ => exact (lhs_mm3_1 _ _).trans hk)
  have er : dot_S2048x128_S128x128_S2048x128_1_0_0_1_n_n.rhsIdx (ix2 r j) ((contrEquiv1 dot_S2048x128_S128x128_S2048x128_1_0_0_1_n_n 128 rfl rfl).symm k) = ix2 k j := funext fun a => Fin.ext (by
    match a with
    | ⟨0, _⟩ => exact (rhs_mm3_0 _ _).trans hk
    | ⟨1, _⟩ => exact rhs_mm3_1 _ _)
  rw [el, er]

/-! A dense layer entry by entry: the bias row is broadcast over the 2048 rows, the narrowing of the input to the
matrix unit's format is the identity on extended reals, and the clamp is at the zero literal. -/
theorem dense1_apply (h : FVec Ideal S2048x512 .f32) (w : FVec Ideal S512x256 .bf16) (b : FVec Ideal S1x256 .f32) (r : Fin 2048) (j : Fin 256) :
    maximumf (addf (matmul dot_S2048x512_S512x256_S2048x256_1_0_0_1_n_n none (truncf .bf16 h bitsLt_bf16_f32) w (constant (F := Ideal) S2048x256 .f32 0x00000000#32))
        (broadcastTo S2048x256 b broadcasts_S1x256_S2048x256)) (broadcast S2048x256 (Scalar.ofBits (F := Ideal) .f32 0x00000000#32)) (ix2 r j)
      = max ((∑ k : Fin 512, h (ix2 r k) * w (ix2 k j)) + b (ix2 (0 : Fin 1) j)) Cert.Mlp.zeroF := by
  rw [maximumf_apply, addf_apply, mm1_apply, broadcastTo_1b_ab_apply, broadcast_apply]
  rfl
theorem dense2_apply (h : FVec Ideal S2048x256 .f32) (w : FVec Ideal S256x128 .bf16) (b : FVec Ideal S1x128 .f32) (r : Fin 2048) (j : Fin 128) :
    maximumf (addf (matmul dot_S2048x256_S256x128_S2048x128_1_0_0_1_n_n none (truncf .bf16 h bitsLt_bf16_f32) w (constant (F := Ideal) S2048x128 .f32 0x00000000#32))
        (broadcastTo S2048x128 b broadcasts_S1x128_S2048x128)) (broadcast S2048x128 (Scalar.ofBits (F := Ideal) .f32 0x00000000#32)) (ix2 r j)
      = max ((∑ k : Fin 256, h (ix2 r k) * w (ix2 k j)) + b (ix2 (0 : Fin 1) j)) Cert.Mlp.zeroF := by
  rw [maximumf_apply, addf_apply, mm2_apply, broadcastTo_1b_ab_apply, broadcast_apply]
  rfl
theorem dense3_apply (h : FVec Ideal S2048x128 .f32) (w : FVec Ideal S128x128 .bf16) (b : FVec Ideal S1x128 .f32) (r : Fin 2048) (j : Fin 128) :
    addf (matmul dot_S2048x128_S128x128_S2048x128_1_0_0_1_n_n none (truncf .bf16 h bitsLt_bf16_f32) w (constant (F := Ideal) S2048x128 .f32 0x00000000#32))
        (broadcastTo S2048x128 b broadcasts_S1x128_S2048x128) (ix2 r j)
      = (∑ k : Fin 128, h (ix2 r k) * w (ix2 k j)) + b (ix2 (0 : Fin 1) j) := by
  rw [addf_apply, mm3_apply, broadcastTo_1b_ab_apply]
  rfl

/-! The payload of either store, entry by entry, over the already narrowed weights and recast biases: the three-layer
network of one row of the activation block. -/
theorem pay1_apply (v1 : FVec Ideal S512x256 .bf16) (v3 : FVec Ideal S256x128 .bf16) (v6 : FVec Ideal S128x128 .bf16)
    (v8 : FVec Ideal S1x256 .f32) (v10 : FVec Ideal S1x128 .f32) (v12 : FVec Ideal S1x128 .f32) (x : Vec Ideal S2048x512 .f32)
    (u : Fin 1) (r : Fin 2048) (j : Fin 128) :
    k0_pay1 v1 v3 v6 v8 v10 v12 x (ix3 u r j)
      = Cert.Mlp.outRow (fun k => x (ix2 r k)) v1 (fun j => v8 (ix2 (0 : Fin 1) j)) v3 (fun j => v10 (ix2 (0 : Fin 1) j))
          v6 (fun j => v12 (ix2 (0 : Fin 1) j)) j := by
  unfold k0_pay1
  refine (shapeCast_ab_1ab_apply _ _ u r j).trans ?_
  refine (dense3_apply _ _ _ r j).trans ?_
  unfold Cert.Mlp.outRow
  refine congrArg (· + _) (Finset.sum_congr rfl fun k _ => congrArg (· * _) ?_)
  refine (dense2_apply _ _ _ r k).trans ?_
  unfold Cert.Mlp.hid2
  refine congrArg (fun t => max (t + _) _) (Finset.sum_congr rfl fun k' _ => congrArg (· * _) ?_)
  exact dense1_apply _ _ _ r k'

/-! The recasts and narrowings applied to the weights and biases before the network are the identity on extended reals. -/
theorem pay2_eq (w : Vec Ideal S512x256 .f32) : k0_pay2 w = w := rfl
theorem pay3_eq (w : Vec Ideal S256x128 .f32) : k0_pay3 w = w := rfl
theorem pay4_eq (w : Vec Ideal S128x128 .f32) : k0_pay4 w = w := by
  unfold k0_pay4
  exact funext fun i => congrFun (shapeCast_self w shapeCasts_S128x128_S128x128) i
theorem pay5_eq (b : Vec Ideal S1x256 .f32) : k0_pay5 b = b := shapeCast_self b shapeCasts_S1x256_S1x256
theorem pay6_eq (b : Vec Ideal S1x128 .f32) : k0_pay6 b = b := shapeCast_self b shapeCasts_S1x128_S1x128
theorem pay7_eq (b : Vec Ideal S1x128 .f32) : k0_pay7 b = b := shapeCast_self b shapeCasts_S1x128_S1x128

/-- The first store's payload is the second's over the narrowed weights and recast biases. -/
theorem pay8_eq_pay1 (v0 : Vec Ideal S512x256 .f32) (v2 : Vec Ideal S256x128 .f32) (v4 : Vec Ideal S128x128 .f32) (v7 : Vec Ideal S1x256 .f32)
    (v9 : Vec Ideal S1x128 .f32) (v11 : Vec Ideal S1x128 .f32) (v13 : Vec Ideal S2048x512 .f32) :
    k0_pay8 v0 v2 v4 v7 v9 v11 v13 = k0_pay1 (k0_pay2 v0) (k0_pay3 v2) (k0_pay4 v4) (k0_pay5 v7) (k0_pay6 v9) (k0_pay7 v11) v13 := rfl

/-- Either payload, entry by entry, over the weights and biases as loaded. -/
theorem pay_apply (w1 : Vec Ideal S512x256 .f32) (b1 : Vec Ideal S1x256 .f32) (w2 : Vec Ideal S256x128 .f32)
    (b2 : Vec Ideal S1x128 .f32) (w3 : Vec Ideal S128x128 .f32) (b3 : Vec Ideal S1x128 .f32) (x : Vec Ideal S2048x512 .f32)
    (u : Fin 1) (r : Fin 2048) (j : Fin 128) :
    k0_pay1 (k0_pay2 w1) (k0_pay3 w2) (k0_pay4 w3) (k0_pay5 b1) (k0_pay6 b2) (k0_pay7 b3) x (ix3 u r j)
      = Cert.Mlp.outRow (fun k => x (ix2 r k)) w1 (fun j => b1 (ix2 (0 : Fin 1) j)) w2 (fun j => b2 (ix2 (0 : Fin 1) j)) w3 (fun j => b3 (ix2 (0 : Fin 1) j)) j := by
  rw [pay1_apply, pay2_eq, pay3_eq, pay4_eq, pay5_eq, pay6_eq, pay7_eq]

/-! A load through the whole-buffer rectangle reads the buffer. -/
theorem zero2 : (![0, 0] : Fin 2 → Nat) = fun _ => 0 := funext fun a => match a with | ⟨0, _⟩ => rfl | ⟨1, _⟩ => rfl
theorem ld_rX (x : Vec Ideal S2048x512 .f32) : View.ld x rX = x := View.ld_unit_zero (S := S2048x512) zero2 _ x
theorem ld_rW1 (w : Vec Ideal S512x256 .f32) : View.ld w rW1 = w := View.ld_unit_zero (S := S512x256) zero2 _ w
theorem ld_rB1 (b : Vec Ideal S1x256 .f32) : View.ld b rB1 = b := View.ld_unit_zero (S := S1x256) zero2 _ b
theorem ld_rW2 (w : Vec Ideal S256x128 .f32) : View.ld w rW2 = w := View.ld_unit_zero (S := S256x128) zero2 _ w
theorem ld_rB2 (b : Vec Ideal S1x128 .f32) : View.ld b rB2 = b := View.ld_unit_zero (S := S1x128) zero2 _ b
theorem ld_rW3 (w : Vec Ideal S128x128 .f32) : View.ld w rW3 = w := View.ld_unit_zero (S := S128x128) zero2 _ w

/-! Where an entry of either slab sits in the output block: slab 1 is the rectangle at offset (1, 0, 0), slab 0 the one
at the origin, and an entry of slab 0 is outside slab 1's rectangle. -/
theorem ix3_hi (r : Fin 2048) (j : Fin 128) : ix3 (1 : Fin 2) r j = rHi.emb (ix3 (0 : Fin 1) r j) :=
  funext fun a => Fin.ext (by
    match a with
    | ⟨0, _⟩ => rfl
    | ⟨1, _⟩ => show r.val = 0 + 1 * r.val; omega
    | ⟨2, _⟩ => show j.val = 0 + 1 * j.val; omega)
theorem ix3_lo (r : Fin 2048) (j : Fin 128) : ix3 (0 : Fin 2) r j = rLo.emb (ix3 (0 : Fin 1) r j) :=
  funext fun a => Fin.ext (by
    match a with
    | ⟨0, _⟩ => rfl
    | ⟨1, _⟩ => show r.val = 0 + 1 * r.val; omega
    | ⟨2, _⟩ => show j.val = 0 + 1 * j.val; omega)
theorem ix3_lo_not_mem (r : Fin 2048) (j : Fin 128) : ix3 (0 : Fin 2) r j ∉ rHi.set := fun h =>
  absurd ((Rect.mem_set_unit.mp h 0).1) (by show ¬ (1 : Nat) ≤ 0; omega)

/-! The block two stores leave, the later through slab 1's rectangle and the earlier through slab 0's, read at an
entry of either slab: the store's payload there. -/
theorem canon_hi (P1 P8 : Vec Ideal S1x2048x128 .f32) (r : Fin 2048) (j : Fin 128) :
    (View.canon [⟨rHi, P1⟩, ⟨rLo, P8⟩] : Vec Ideal S2x2048x128 .f32) (ix3 (1 : Fin 2) r j) = P1 (ix3 (0 : Fin 1) r j) := by
  rw [ix3_hi r j, View.canon_cons_emb]
theorem canon_lo (P1 P8 : Vec Ideal S1x2048x128 .f32) (r : Fin 2048) (j : Fin 128) :
    (View.canon [⟨rHi, P1⟩, ⟨rLo, P8⟩] : Vec Ideal S2x2048x128 .f32) (ix3 (0 : Fin 2) r j) = P8 (ix3 (0 : Fin 1) r j) := by
  rw [View.canon_cons_of_not_mem ⟨rHi, P1⟩ [⟨rLo, P8⟩] (ix3_lo_not_mem r j), ix3_lo r j, View.canon_cons_emb]

end Payload

open Payload

/-! The output block over the extended reals, entry by entry: slab 0 holds the three-layer network of the rows of
the first activation block, slab 1 of the second, the output layer 128 wide. -/
theorem outBlock_lo (xa xb : Vec Ideal S2048x512 .f32) (w1 : Vec Ideal S512x256 .f32) (b1 : Vec Ideal S1x256 .f32) (w2 : Vec Ideal S256x128 .f32)
    (b2 : Vec Ideal S1x128 .f32) (w3 : Vec Ideal S128x128 .f32) (b3 : Vec Ideal S1x128 .f32) (r : Fin 2048) (j : Fin 128) :
    outBlock xa xb w1 b1 w2 b2 w3 b3 (ix3 (0 : Fin 2) r j)
      = Cert.Mlp.outRow (fun k => xa (ix2 r k)) w1 (fun j => b1 (ix2 (0 : Fin 1) j)) w2 (fun j => b2 (ix2 (0 : Fin 1) j)) w3 (fun j => b3 (ix2 (0 : Fin 1) j)) j := by
  unfold outBlock
  refine (canon_lo _ _ r j).trans ?_
  rw [pay8_eq_pay1, ld_rX, ld_rW1, ld_rB1, ld_rW2, ld_rB2, ld_rB2, ld_rW3]
  exact pay_apply w1 b1 w2 b2 w3 b3 xa 0 r j
theorem outBlock_hi (xa xb : Vec Ideal S2048x512 .f32) (w1 : Vec Ideal S512x256 .f32) (b1 : Vec Ideal S1x256 .f32) (w2 : Vec Ideal S256x128 .f32)
    (b2 : Vec Ideal S1x128 .f32) (w3 : Vec Ideal S128x128 .f32) (b3 : Vec Ideal S1x128 .f32) (r : Fin 2048) (j : Fin 128) :
    outBlock xa xb w1 b1 w2 b2 w3 b3 (ix3 (1 : Fin 2) r j)
      = Cert.Mlp.outRow (fun k => xb (ix2 r k)) w1 (fun j => b1 (ix2 (0 : Fin 1) j)) w2 (fun j => b2 (ix2 (0 : Fin 1) j)) w3 (fun j => b3 (ix2 (0 : Fin 1) j)) j := by
  unfold outBlock
  refine (canon_hi _ _ r j).trans ?_
  rw [ld_rX, ld_rW1, ld_rB1, ld_rW2, ld_rB2, ld_rB2, ld_rW3]
  exact pay_apply w1 b1 w2 b2 w3 b3 xb 0 r j

end Cert.KernelIdeal.Hand

end
-- ==== Proof.KI.Blocks.lean ====
import proofs.«114956_g19258633355276_cont_8to1_1994_22_alg».proof.Proof.KI.Payload
import Idealize.ShloMosaic.Lib.Pipeline.Value

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (m : (ℓ : Loc nD τ sig) → Buf (Elt Ideal) ℓ)

namespace Blocks

/-- The windows' block indices at every grid point. -/
theorem block_indices : ∀ t : Fin cfg0.N,
    win0_0.index t (0 : Fin 2) = t.val ∧ win0_0.index t (1 : Fin 2) = 0
    ∧ win0_1.index t (0 : Fin 2) = t.val + 4 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 3) = 0 ∧ win0_8.index t (1 : Fin 3) = t.val ∧ win0_8.index t (2 : Fin 3) = 0 :=
  (by decide +kernel : ∀ t : Fin grid0.N, _)

/-- The grid has four points. -/
theorem val_lt4 (t : Fin cfg0.N) : t.val < 4 := by have := t.isLt; have h : cfg0.N = 4 := N_0; omega

/-! ## The input blocks, read off their arrays -/

/-- The first activation block at point t is rows 2048 t … 2048 t + 2047 of the activation matrix. -/
theorem iblk0_apply (c : Dev nD) (t : Fin cfg0.N) (r : Fin 2048) (k : Fin 512) (row : Fin 16384)
    (hrow : row.val = t.val * 2048 + r.val) :
    (iblk m c 0 t : Vec Ideal S2048x512 .f32) (ix2 r k) = (V m c main_arg0 : Vec Ideal S16384x512 .f32) (ix2 row k) := by
  obtain ⟨e0, e1, -⟩ := block_indices t
  unfold iblk
  rw [View.read_apply]
  show V m c main_arg0 _ = V m c main_arg0 _
  congr 1
  funext a
  apply Fin.ext
  match a with
  | ⟨0, _⟩ => show win0_0.index t (0 : Fin 2) * 2048 + 1 * r.val = row.val; rw [e0, hrow]; omega
  | ⟨1, _⟩ => show win0_0.index t (1 : Fin 2) * 512 + 1 * k.val = k.val; rw [e1]; omega

/-- The second activation block at point t is rows 2048 (t + 4) … 2048 (t + 4) + 2047 of the activation matrix. -/
theorem iblk1_apply (c : Dev nD) (t : Fin cfg0.N) (r : Fin 2048) (k : Fin 512) (row : Fin 16384)
    (hrow : row.val = (t.val + 4) * 2048 + r.val) :
    (iblk m c 1 t : Vec Ideal S2048x512 .f32) (ix2 r k) = (V m c main_arg0 : Vec Ideal S16384x512 .f32) (ix2 row k) := by
  obtain ⟨-, -, e0, e1, -⟩ := block_indices t
  unfold iblk
  rw [View.read_apply]
  show V m c main_arg0 _ = V m c main_arg0 _
  congr 1
  funext a
  apply Fin.ext
  match a with
  | ⟨0, _⟩ => show win0_1.index t (0 : Fin 2) * 2048 + 1 * r.val = row.val; rw [e0, hrow]; omega
  | ⟨1, _⟩ => show win0_1.index t (1 : Fin 2) * 512 + 1 * k.val = k.val; rw [e1]; omega

/-- The weight and bias windows' one block is their whole array: at every point the block is the array. -/
theorem iblk2_eq (c : Dev nD) (t : Fin cfg0.N) : (iblk m c 2 t : Vec Ideal S512x256 .f32) = V m c main_arg1 := by
  obtain ⟨-, -, -, -, e0, e1, -⟩ := block_indices t
  funext y
  unfold iblk
  rw [View.read_apply]
  show V m c main_arg1 _ = V m c main_arg1 _
  congr 1
  funext a
  apply Fin.ext
  match a with
  | ⟨0, _⟩ => show win0_2.index t (0 : Fin 2) * 512 + 1 * (y 0).val = (y 0).val; rw [e0]; omega
  | ⟨1, _⟩ => show win0_2.index t (1 : Fin 2) * 256 + 1 * (y 1).val = (y 1).val; rw [e1]; omega

theorem iblk3_eq (c : Dev nD) (t : Fin cfg0.N) : (iblk m c 3 t : Vec Ideal S1x256 .f32) = V m c main_v0 := by
  obtain ⟨-, -, -, -, -, -, e0, e1, -⟩ := block_indices t
  funext y
  unfold iblk
  rw [View.read_apply]
  show V m c main_v0 _ = V m c main_v0 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 256 + 1 * (y 1).val = (y 1).val; rw [e1]; omega

theorem iblk4_eq (c : Dev nD) (t : Fin cfg0.N) : (iblk m c 4 t : Vec Ideal S256x128 .f32) = V m c main_arg3 := by
  obtain ⟨-, -, -, -, -, -, -, -, e0, e1, -⟩ := block_indices t
  funext y
  unfold iblk
  rw [View.read_apply]
  show V m c main_arg3 _ = V m c main_arg3 _
  congr 1
  funext a
  apply Fin.ext
  match a with
  | ⟨0, _⟩ => show win0_4.index t (0 : Fin 2) * 256 + 1 * (y 0).val = (y 0).val; rw [e0]; omega
  | ⟨1, _⟩ => show win0_4.index t (1 : Fin 2) * 128 + 1 * (y 1).val = (y 1).val; rw [e1]; omega

theorem iblk5_eq (c : Dev nD) (t : Fin cfg0.N) : (iblk m c 5 t : Vec Ideal S1x128 .f32) = V m c main_v1 := by
  obtain ⟨-, -, -, -, -, -, -, -, -, -, e0, e1, -⟩ := block_indices t
  funext y
  unfold iblk
  rw [View.read_apply]
  show V m c main_v1 _ = V m c main_v1 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

theorem iblk6_eq (c : Dev nD) (t : Fin cfg0.N) : (iblk m c 6 t : Vec Ideal S128x128 .f32) = V m c main_v2 := by
  obtain ⟨-, -, -, -, -, -, -, -, -, -, -, -, e0, e1, -⟩ := block_indices t
  funext y
  unfold iblk
  rw [View.read_apply]
  show V m c main_v2 _ = V m c main_v2 _
  congr 1
  funext a
  apply Fin.ext
  match a with
  | ⟨0, _⟩ => show win0_6.index t (0 : Fin 2) * 128 + 1 * (y 0).val = (y 0).val; rw [e0]; omega
  | ⟨1, _⟩ => show win0_6.index t (1 : Fin 2) * 128 + 1 * (y 1).val = (y 1).val; rw [e1]; omega

theorem iblk7_eq (c : Dev nD) (t : Fin cfg0.N) : (iblk m c 7 t : Vec Ideal S1x128 .f32) = V m c main_v4 := by
  obtain ⟨-, -, -, -, -, -, -, -, -, -, -, -, -, -, e0, e1, -⟩ := block_indices t
  funext y
  unfold iblk
  rw [View.read_apply]
  show V m c main_v4 _ = V m c main_v4 _
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-! ## The output array as one function of the arrays the region finds -/

/-- Entry (h, q, j): column j of the network applied to row h · 8192 + q of the activation matrix. -/
def outAt (c : Dev nD) (h : Fin 2) (q : Fin 8192) (j : Fin 128) : EReal :=
  Cert.Mlp.outRow (fun k => (V m c main_arg0 : Vec Ideal S16384x512 .f32) (ix2 (⟨h.val * 8192 + q.val, by omega⟩ : Fin 16384) k))
    (V m c main_arg1) (fun j => (V m c main_v0 : Vec Ideal S1x256 .f32) (ix2 (0 : Fin 1) j))
    (V m c main_arg3) (fun j => (V m c main_v1 : Vec Ideal S1x128 .f32) (ix2 (0 : Fin 1) j))
    (V m c main_v2) (fun j => (V m c main_v4 : Vec Ideal S1x128 .f32) (ix2 (0 : Fin 1) j)) j

/-- The whole output array. -/
def Gout (c : Dev nD) : Vec Ideal S2x8192x128 .f32 := fun i => outAt m c (i 0) (i 1) (i 2)

/-- A block whose entry (s, r, j) is the array's entry (s, 2048 t + r, j) is the output window's block at point t of
    that array. -/
theorem cut_eq_read (t : Fin cfg0.N) (B : Vec Ideal S2x2048x128 .f32) (G : Vec Ideal S2x8192x128 .f32)
    (hB : ∀ (s : Fin 2) (r : Fin 2048) (j : Fin 128),
      B (ix3 s r j) = G (ix3 s (⟨t.val * 2048 + r.val, by have := val_lt4 t; omega⟩ : Fin 8192) j)) :
    (cfg0.win 8).cut (grid0.coords t) B = ((cfg0.win 8).blk t).view.read (Elt Ideal) G := by
  obtain ⟨-, -, -, -, -, -, -, -, -, -, -, -, -, -, -, -, e0, e1, e2⟩ := block_indices t
  refine funext fun (y : S2x2048x128.Idx) => ?_
  obtain ⟨s, r, j, rfl⟩ : ∃ (s : Fin 2) (r : Fin 2048) (j : Fin 128), y = ix3 s r j := ⟨y 0, y 1, y 2, eq_ix3 y⟩
  rw [View.read_apply]
  show B (ix3 s r j) = G _
  refine (hB s r j).trans ?_
  congr 1
  funext a
  apply Fin.ext
  match a with
  | ⟨0, _⟩ => show s.val = win0_8.index t (0 : Fin 3) * 2 + 1 * s.val; rw [e0]; omega
  | ⟨1, _⟩ => show t.val * 2048 + r.val = win0_8.index t (1 : Fin 3) * 2048 + 1 * r.val; rw [e1]; omega
  | ⟨2, _⟩ => show j.val = win0_8.index t (2 : Fin 3) * 128 + 1 * j.val; rw [e2]; omega

/-- Slab 0 of the output block, once its activation block's row r is row `row` of the activation matrix. -/
theorem slab_lo (xa xb : Vec Ideal S2048x512 .f32) (w1 : Vec Ideal S512x256 .f32) (b1 : Vec Ideal S1x256 .f32) (w2 : Vec Ideal S256x128 .f32)
    (b2 : Vec Ideal S1x128 .f32) (w3 : Vec Ideal S128x128 .f32) (b3 : Vec Ideal S1x128 .f32) (X : Vec Ideal S16384x512 .f32)
    (r : Fin 2048) (j : Fin 128) (row : Fin 16384) (hx : ∀ k : Fin 512, xa (ix2 r k) = X (ix2 row k)) :
    outBlock xa xb w1 b1 w2 b2 w3 b3 (ix3 (0 : Fin 2) r j)
      = Cert.Mlp.outRow (fun k => X (ix2 row k)) w1 (fun j => b1 (ix2 (0 : Fin 1) j)) w2 (fun j => b2 (ix2 (0 : Fin 1) j)) w3 (fun j => b3 (ix2 (0 : Fin 1) j)) j := by
  refine (outBlock_lo xa xb w1 b1 w2 b2 w3 b3 r j).trans ?_
  rw [show (fun k => xa (ix2 r k)) = fun k => X (ix2 row k) from funext hx]

/-- Slab 1, likewise from the second activation block. -/
theorem slab_hi (xa xb : Vec Ideal S2048x512 .f32) (w1 : Vec Ideal S512x256 .f32) (b1 : Vec Ideal S1x256 .f32) (w2 : Vec Ideal S256x128 .f32)
    (b2 : Vec Ideal S1x128 .f32) (w3 : Vec Ideal S128x128 .f32) (b3 : Vec Ideal S1x128 .f32) (X : Vec Ideal S16384x512 .f32)
    (r : Fin 2048) (j : Fin 128) (row : Fin 16384) (hx : ∀ k : Fin 512, xb (ix2 r k) = X (ix2 row k)) :
    outBlock xa xb w1 b1 w2 b2 w3 b3 (ix3 (1 : Fin 2) r j)
      = Cert.Mlp.outRow (fun k => X (ix2 row k)) w1 (fun j => b1 (ix2 (0 : Fin 1) j)) w2 (fun j => b2 (ix2 (0 : Fin 1) j)) w3 (fun j => b3 (ix2 (0 : Fin 1) j)) j := by
  refine (outBlock_hi xa xb w1 b1 w2 b2 w3 b3 r j).trans ?_
  rw [show (fun k => xb (ix2 r k)) = fun k => X (ix2 row k) from funext hx]

/-! ## What each point writes back, the cover, the array -/

/-- What point t writes back is block t of the whole output array. -/
theorem writeback_eq (c : Dev nD) (t : Fin cfg0.N) :
    (dats m 0 c).flushed 8 t = ((cfg0.win 8).blk t).view.read (Elt Ideal) (Gout m c) := by
  show (cfg0.win 8).cut (grid0.coords t) ((dats m 0 c).after 8 t) = _
  rw [after0_8, iblk2_eq, iblk3_eq, iblk4_eq, iblk5_eq, iblk6_eq, iblk7_eq]
  refine cut_eq_read t (outBlock (iblk m c 0 t) (iblk m c 1 t) (V m c main_arg1) (V m c main_v0) (V m c main_arg3) (V m c main_v1) (V m c main_v2) (V m c main_v4))
    (Gout m c) fun s r j => ?_
  have ht := val_lt4 t
  match s with
  | ⟨0, _⟩ =>
    exact slab_lo (iblk m c 0 t) (iblk m c 1 t) (V m c main_arg1) (V m c main_v0) (V m c main_arg3) (V m c main_v1) (V m c main_v2) (V m c main_v4)
      (V m c main_arg0) r j (⟨0 * 8192 + (t.val * 2048 + r.val), by omega⟩ : Fin 16384)
      (fun k => iblk0_apply m c t r k _ (by show 0 * 8192 + (t.val * 2048 + r.val) = _; omega))
  | ⟨1, _⟩ =>
    exact slab_hi (iblk m c 0 t) (iblk m c 1 t) (V m c main_arg1) (V m c main_v0) (V m c main_arg3) (V m c main_v1) (V m c main_v2) (V m c main_v4)
      (V m c main_arg0) r j (⟨1 * 8192 + (t.val * 2048 + r.val), by omega⟩ : Fin 16384)
      (fun k => iblk1_apply m c t r k _ (by show 1 * 8192 + (t.val * 2048 + r.val) = _; omega))

/-- An index of the output array is in point t's block iff each coordinate is in the block's range on its axis. -/
theorem mem_outBlock_iff (t : Fin cfg0.N) (i : S2x8192x128.Idx) :
    i ∈ ((cfg0.win 8).blk t).view.set ↔ ∀ a : Fin 3, win0_8.index t a * S2x2048x128.size a ≤ (i a).val ∧ (i a).val < win0_8.index t a * S2x2048x128.size a + S2x2048x128.size a := by
  show i ∈ ((View.whole main_v5).slice (win0_8.rect t)).set ↔ _
  rw [View.set_slice_whole, Rect.mem_set_unit]
  exact Iff.rfl

/-- Entry (h, q, j) is in the block of point q / 2048, and every point writes back. -/
theorem out_covered (i : S2x8192x128.Idx) : ∃ t : Fin cfg0.N, (cfg0.win 8).flush t = true ∧ i ∈ ((cfg0.win 8).blk t).view.set := by
  have h0 : (i 0).val < 2 := (i 0).isLt
  have h1 : (i 1).val < 8192 := (i 1).isLt
  have h2 : (i 2).val < 128 := (i 2).isLt
  have hN : cfg0.N = 4 := N_0
  obtain ⟨t, ht⟩ : ∃ t : Fin cfg0.N, t.val = (i 1).val / 2048 := ⟨⟨(i 1).val / 2048, by omega⟩, rfl⟩
  obtain ⟨-, -, -, -, -, -, -, -, -, -, -, -, -, -, -, -, e0, e1, e2⟩ := block_indices t
  refine ⟨t, flush0_8 t, ?_⟩
  rw [mem_outBlock_iff]
  intro a
  match a with
  | ⟨0, _⟩ => show win0_8.index t (0 : Fin 3) * 2 ≤ (i 0).val ∧ (i 0).val < win0_8.index t (0 : Fin 3) * 2 + 2; rw [e0]; omega
  | ⟨1, _⟩ => show win0_8.index t (1 : Fin 3) * 2048 ≤ (i 1).val ∧ (i 1).val < win0_8.index t (1 : Fin 3) * 2048 + 2048; rw [e1, ht]; omega
  | ⟨2, _⟩ => show win0_8.index t (2 : Fin 3) * 128 ≤ (i 2).val ∧ (i 2).val < win0_8.index t (2 : Fin 3) * 128 + 128; rw [e2]; omega

/-- The output array after the run is the whole-array function. -/
theorem outArr_eq (c : Dev nD) : (dats m 0 c).arrAt 8 cfg0.N = Gout m c :=
  (dats m 0 c).arrAt_eq_of_cover 8 (Gout m c) (fun t _ => writeback_eq m c t) out_covered

end Blocks

/-- The output array after the run, entry by entry: entry (h, q, j) is column j of the network (output layer
    128 wide, on the padded weight and bias as the region finds them) applied to row h · 8192 + q of the
    activation matrix. -/
theorem final8 (c : Dev nD) (h : Fin 2) (q : Fin 8192) (j : Fin 128) :
    ((dats m 0 c).arrAt 8 cfg0.N : Vec Ideal S2x8192x128 .f32) (ix3 h q j)
      = Cert.Mlp.outRow (fun k => (V m c main_arg0 : Vec Ideal S16384x512 .f32) (ix2 (⟨h.val * 8192 + q.val, by omega⟩ : Fin 16384) k))
          (V m c main_arg1) (fun j => (V m c main_v0 : Vec Ideal S1x256 .f32) (ix2 (0 : Fin 1) j))
          (V m c main_arg3) (fun j => (V m c main_v1 : Vec Ideal S1x128 .f32) (ix2 (0 : Fin 1) j))
          (V m c main_v2) (fun j => (V m c main_v4 : Vec Ideal S1x128 .f32) (ix2 (0 : Fin 1) j)) j := by
  rw [Blocks.outArr_eq]
  rfl

end Cert.KernelIdeal.Hand

end
-- ==== Proof.KI.EntryIdeal.lean ====
import proofs.«114956_g19258633355276_cont_8to1_1994_22_alg».proof.Proof.KI.Entry
import Idealize.ShloMosaic.Lib.ValueIdx
import Idealize.ShloMosaic.Lib.KernelVsHost
import Idealize.ShloMosaic.Lib.ValueLayout
import Idealize.ShloMosaic.Lib.Pipeline.Value

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (m : (ℓ : Loc nD τ sig) → Buf (Elt Ideal) ℓ)

/-! The window arrays the host operations before the region write, read at an index over the extended reals:
the two reshaped biases entry by entry, and the zero-padded last-layer weight and bias on the columns that are
not padding. -/
theorem V_main_v0_apply (c : Dev nD) (j : Fin 256) :
    (V m c main_v0 : Vec Ideal S1x256 .f32) (ix2 (0 : Fin 1) j) = (m ((c : Thread nD τ).loc main_arg2) : Vec Ideal S256 .f32) (ix1 j) :=
  (congrFun (V_main_v0 m c) (ix2 (0 : Fin 1) j)).trans (shapeCast_a_1a_apply _ _ (0 : Fin 1) j)
theorem V_main_v1_apply (c : Dev nD) (j : Fin 128) :
    (V m c main_v1 : Vec Ideal S1x128 .f32) (ix2 (0 : Fin 1) j) = (m ((c : Thread nD τ).loc main_arg4) : Vec Ideal S128 .f32) (ix1 j) :=
  (congrFun (V_main_v1 m c) (ix2 (0 : Fin 1) j)).trans (shapeCast_a_1a_apply _ _ (0 : Fin 1) j)
theorem V_main_v2_apply (c : Dev nD) (k : Fin 128) (j : Fin 32) :
    (V m c main_v2 : Vec Ideal S128x128 .f32) (ix2 k (⟨j.val, by omega⟩ : Fin 128)) = (m ((c : Thread nD τ).loc main_arg5) : Vec Ideal S128x32 .f32) (ix2 k j) := by
  refine (congrFun (V_main_v2 m c) (ix2 k (⟨j.val, by omega⟩ : Fin 128))).trans ?_
  refine pad_apply_of_inside _ _ _ _ _ _ _ _ (ix2 k j) ?_
  intro a
  match a with
  | ⟨0, _⟩ => show k.val = 0 + k.val * (0 + 1); omega
  | ⟨1, _⟩ => show j.val = 0 + j.val * (0 + 1); omega
theorem V_main_v4_apply (c : Dev nD) (j : Fin 32) :
    (V m c main_v4 : Vec Ideal S1x128 .f32) (ix2 (0 : Fin 1) (⟨j.val, by omega⟩ : Fin 128)) = (m ((c : Thread nD τ).loc main_arg6) : Vec Ideal S32 .f32) (ix1 j) := by
  refine (congrFun (V_main_v4 m c) (ix2 (0 : Fin 1) (⟨j.val, by omega⟩ : Fin 128))).trans ?_
  refine (shapeCast_a_1a_apply _ _ (0 : Fin 1) (⟨j.val, by omega⟩ : Fin 128)).trans ?_
  refine pad_apply_of_inside _ _ _ _ _ _ _ _ (ix1 j) ?_
  intro a
  match a with
  | ⟨0, _⟩ => show j.val = 0 + j.val * (0 + 1); omega

end Cert.KernelIdeal.Hand

end
-- ==== Proof.KI.Result.lean ====
import proofs.«114956_g19258633355276_cont_8to1_1994_22_alg».proof.Proof.KI.Blocks
import proofs.«114956_g19258633355276_cont_8to1_1994_22_alg».proof.Proof.KI.EntryIdeal

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (m : (ℓ : Loc nD τ sig) → Buf (Elt Ideal) ℓ)

/-- The two host operations after the region, read at an index: row `r`, column `j` of the result is entry
    `(r / 8192, r % 8192, j)` of the output array (the slice keeps column `j`, the reshape keeps the row-major
    position). -/
theorem tailOut_apply (Y : Vec Ideal S2x8192x128 .f32) (r : Fin 16384) (j : Fin 32) :
    tailOut Y (ix2 r j)
      = Y (ix3 (⟨r.val / 8192, by omega⟩ : Fin 2) (⟨r.val % 8192, by omega⟩ : Fin 8192) (⟨j.val, by omega⟩ : Fin 128)) := by
  unfold tailOut
  refine (extractStridedSlice_apply _ _ _ (ix2 r j) (ix2 r (⟨j.val, by omega⟩ : Fin 128)) ?_).trans ?_
  · intro a
    match a with
    | ⟨0, _⟩ => show r.val = 0 + r.val; omega
    | ⟨1, _⟩ => show j.val = 0 + j.val; omega
  · refine shapeCast_apply _ _ _ _ ?_
    rw [Shape.rowMajor_val_two, Shape.rowMajor_val_three]
    show (r.val / 8192 * 8192 + r.val % 8192) * 128 + j.val = r.val * 128 + j.val
    omega

/-- The output layer's value depends on the row, the two hidden layers' weights and their biases only through
    their values. -/
theorem outRow_ext {n : Nat} {xr xr' : Fin 512 → EReal} {W1 W1' : FVec Ideal ⟨2, ![512, 256]⟩ .f32} {b1 b1' : Fin 256 → EReal}
    {W2 W2' : FVec Ideal ⟨2, ![256, 128]⟩ .f32} {b2 b2' : Fin 128 → EReal}
    (W3 : FVec Ideal ⟨2, ![128, n]⟩ .f32) (b3 : Fin n → EReal) (j : Fin n)
    (hx : xr = xr') (hW1 : W1 = W1') (hb1 : b1 = b1') (hW2 : W2 = W2') (hb2 : b2 = b2') :
    Cert.Mlp.outRow xr W1 b1 W2 b2 W3 b3 j = Cert.Mlp.outRow xr' W1' b1' W2' b2' W3 b3 j := by
  subst hx hW1 hb1 hW2 hb2
  rfl

/-- Entry `(h, q, j)` of the output array, for a column `j` that is not padding, is the network of the arguments
    at row `h · 8192 + q`, column `j`: the padded output layer agrees with the 32-wide one there. -/
theorem final8_args (c : Dev nD) (h : Fin 2) (q : Fin 8192) (j : Fin 32) :
    ((dats m 0 c).arrAt 8 cfg0.N : Vec Ideal S2x8192x128 .f32) (ix3 h q (⟨j.val, by omega⟩ : Fin 128))
      = Cert.Mlp.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (ix2 (⟨h.val * 8192 + q.val, by omega⟩ : Fin 16384) j) := by
  refine (final8 m c h q (⟨j.val, by omega⟩ : Fin 128)).trans ?_
  refine (Cert.Mlp.outRow_congr _ _ _ _ _ _ _ (m ((c : Thread nD τ).loc main_arg5))
    (fun j => (m ((c : Thread nD τ).loc main_arg6) : Vec Ideal S32 .f32) (ix1 j)) (⟨j.val, by omega⟩ : Fin 128) j
    (fun k => V_main_v2_apply m c k j) (V_main_v4_apply m c j)).trans ?_
  unfold Cert.Mlp.G
  refine outRow_ext _ _ _ ?_ ?_ ?_ ?_ ?_
  · exact funext fun k => congrFun (V_main_arg0 m c) _
  · exact V_main_arg1 m c
  · exact funext (V_main_v0_apply m c)
  · exact V_main_arg3 m c
  · exact funext (V_main_v1_apply m c)

/-- The program's result over the extended reals is the network of the arguments. -/
theorem result_eq (c : Dev nD) :
    tailOut ((dats m 0 c).arrAt 8 cfg0.N)
      = Cert.Mlp.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  funext i
  obtain ⟨r, j, rfl⟩ : ∃ (r : Fin 16384) (j : Fin 32), i = ix2 r j := ⟨i 0, i 1, eq_ix2 i⟩
  refine (tailOut_apply _ r j).trans ?_
  refine (final8_args m c _ _ j).trans ?_
  refine congrArg _ (congrArg (fun r' : Fin 16384 => ix2 r' j) (Fin.ext ?_))
  show r.val / 8192 * 8192 + r.val % 8192 = r.val
  omega

end Cert.KernelIdeal.Hand

end
-- ==== Proof.Ref.lean ====
import proofs.«114956_g19258633355276_cont_8to1_1994_22_alg».proof.Proof.Gen.ReferenceIdeal.Read
import proofs.«114956_g19258633355276_cont_8to1_1994_22_alg».proof.Proof.Spec
import Idealize.ShloMosaic.Lib.ValueIdx

noncomputable section

namespace Cert.RefSide

open Idealize.ShloMosaic Idealize.ShloMosaic.ValueIdx Cert.ReferenceIdeal Cert.ReferenceIdeal.Read

/-! ### The index functions of the three contractions and the three bias broadcasts, by coordinates -/

theorem lidx_v0 (r : Fin 16384) (j : Fin 256) (k : Fin 512) : lidx_main_v0 (ix2 r j) k = ix2 r k :=
  funext fun a => Fin.ext (by match a with | ⟨0, _⟩ => rfl | ⟨1, _⟩ => rfl)
theorem ridx_v0 (r : Fin 16384) (j : Fin 256) (k : Fin 512) : ridx_main_v0 (ix2 r j) k = ix2 k j :=
  funext fun a => Fin.ext (by match a with | ⟨0, _⟩ => rfl | ⟨1, _⟩ => rfl)
theorem bidx_v2 (r : Fin 16384) (j : Fin 256) : idx_main_v1 (idx_main_v2 (ix2 r j)) = ix1 j :=
  funext fun a => Fin.ext (by match a with | ⟨0, _⟩ => rfl)

theorem lidx_v6 (r : Fin 16384) (j : Fin 128) (k : Fin 256) : lidx_main_v6 (ix2 r j) k = ix2 r k :=
  funext fun a => Fin.ext (by match a with | ⟨0, _⟩ => rfl | ⟨1, _⟩ => rfl)
theorem ridx_v6 (r : Fin 16384) (j : Fin 128) (k : Fin 256) : ridx_main_v6 (ix2 r j) k = ix2 k j :=
  funext fun a => Fin.ext (by match a with | ⟨0, _⟩ => rfl | ⟨1, _⟩ => rfl)
theorem bidx_v8 (r : Fin 16384) (j : Fin 128) : idx_main_v7 (idx_main_v8 (ix2 r j)) = ix1 j :=
  funext fun a => Fin.ext (by match a with | ⟨0, _⟩ => rfl)

theorem lidx_v12 (r : Fin 16384) (j : Fin 32) (k : Fin 128) : lidx_main_v12 (ix2 r j) k = ix2 r k :=
  funext fun a => Fin.ext (by match a with | ⟨0, _⟩ => rfl | ⟨1, _⟩ => rfl)
theorem ridx_v12 (r : Fin 16384) (j : Fin 32) (k : Fin 128) : ridx_main_v12 (ix2 r j) k = ix2 k j :=
  funext fun a => Fin.ext (by match a with | ⟨0, _⟩ => rfl | ⟨1, _⟩ => rfl)
theorem bidx_v14 (r : Fin 16384) (j : Fin 32) : idx_main_v13 (idx_main_v14 (ix2 r j)) = ix1 j :=
  funext fun a => Fin.ext (by match a with | ⟨0, _⟩ => rfl)

/-! ### The layers, one element at a time -/

/-- The first clamped layer at row `r`, column `j`. -/
theorem v5_at (x0 : Vec Ideal S16384x512 .f32) (x1 : Vec Ideal S512x256 .f32) (x2 : Vec Ideal S256 .f32)
    (r : Fin 16384) (j : Fin 256) :
    val_main_v5 (F := Ideal) x0 x1 x2 (ix2 r j)
      = Cert.Mlp.hid1 (fun k => x0 (ix2 r k)) x1 (fun j => x2 (ix1 j)) j := by
  rw [val_main_v5_apply, val_main_v3_apply, val_main_v4_apply, val_main_cst_apply, val_main_v0_apply,
    val_main_v2_apply, val_main_v1_apply, bidx_v2]
  unfold Cert.Mlp.hid1
  simp only [Ideal.maximumf_def, Ideal.addf_def, Ideal.ofBits_def, lidx_v0, ridx_v0]

/-- The second clamped layer at row `r`, column `j`. -/
theorem v11_at (x0 : Vec Ideal S16384x512 .f32) (x1 : Vec Ideal S512x256 .f32) (x2 : Vec Ideal S256 .f32)
    (x3 : Vec Ideal S256x128 .f32) (x4 : Vec Ideal S128 .f32) (r : Fin 16384) (j : Fin 128) :
    val_main_v11 (F := Ideal) x0 x1 x2 x3 x4 (ix2 r j)
      = Cert.Mlp.hid2 (fun k => x0 (ix2 r k)) x1 (fun j => x2 (ix1 j)) x3 (fun j => x4 (ix1 j)) j := by
  rw [val_main_v11_apply, val_main_v9_apply, val_main_v10_apply, val_main_cst_0_apply, val_main_v6_apply,
    val_main_v8_apply, val_main_v7_apply, bidx_v8]
  unfold Cert.Mlp.hid2
  simp only [Ideal.maximumf_def, Ideal.addf_def, Ideal.ofBits_def, lidx_v6, ridx_v6, v5_at]

/-- The affine output layer at row `r`, column `j`. -/
theorem v15_at (x0 : Vec Ideal S16384x512 .f32) (x1 : Vec Ideal S512x256 .f32) (x2 : Vec Ideal S256 .f32)
    (x3 : Vec Ideal S256x128 .f32) (x4 : Vec Ideal S128 .f32) (x5 : Vec Ideal S128x32 .f32) (x6 : Vec Ideal S32 .f32)
    (r : Fin 16384) (j : Fin 32) :
    val_main_v15 (F := Ideal) x0 x1 x2 x3 x4 x5 x6 (ix2 r j)
      = Cert.Mlp.outRow (fun k => x0 (ix2 r k)) x1 (fun j => x2 (ix1 j)) x3 (fun j => x4 (ix1 j)) x5
          (fun j => x6 (ix1 j)) j := by
  rw [val_main_v15_apply, val_main_v12_apply, val_main_v14_apply, val_main_v13_apply, bidx_v14]
  unfold Cert.Mlp.outRow
  simp only [Ideal.addf_def, lidx_v12, ridx_v12, v11_at]

/-- The reference's composed term is the network of the arguments. -/
theorem ref_eq (x0 : Vec Ideal S16384x512 .f32) (x1 : Vec Ideal S512x256 .f32) (x2 : Vec Ideal S256 .f32) (x3 : Vec Ideal S256x128 .f32)
    (x4 : Vec Ideal S128 .f32) (x5 : Vec Ideal S128x32 .f32) (x6 : Vec Ideal S32 .f32) :
    val_main_v15 (F := Ideal) x0 x1 x2 x3 x4 x5 x6 = Cert.Mlp.G x0 x1 x2 x3 x4 x5 x6 := by
  funext i
  obtain ⟨r, j, rfl⟩ : ∃ (r : Fin 16384) (j : Fin 32), i = ix2 r j := ⟨i 0, i 1, eq_ix2 i⟩
  exact v15_at x0 x1 x2 x3 x4 x5 x6 r j

end Cert.RefSide

end
-- ==== Proof.lean ====
/- The certificate's claims assembled. Both kernel programs — the word-level one and its idealization, the same text read
   at two float instances — run one pipelined region whose first two windows stage the two halves of ONE array (the
   activation matrix), so their frames are proved against the launch theorem for windows that share an array, each of
   the two windows holding half of that array's share; the reference's frame is its run with the result dropped.
   Over the extended reals the kernel's result — the output array read as 16384 rows of 128, its first 32 columns kept —
   and the reference's are one function of the arguments: the three-layer perceptron `Cert.Mlp.G`, the kernel's
   128-wide last layer on a zero-padded weight and bias agreeing with the reference's 32-wide one on the columns kept. -/
import proofs.«114956_g19258633355276_cont_8to1_1994_22_alg».proof.Defs
import proofs.«114956_g19258633355276_cont_8to1_1994_22_alg».proof.Proof.K.Run
import proofs.«114956_g19258633355276_cont_8to1_1994_22_alg».proof.Proof.K.Frame
import proofs.«114956_g19258633355276_cont_8to1_1994_22_alg».proof.Proof.KI.Run
import proofs.«114956_g19258633355276_cont_8to1_1994_22_alg».proof.Proof.KI.Frame
import proofs.«114956_g19258633355276_cont_8to1_1994_22_alg».proof.Proof.KI.Result
import proofs.«114956_g19258633355276_cont_8to1_1994_22_alg».proof.Proof.Ref
import proofs.«114956_g19258633355276_cont_8to1_1994_22_alg».proof.Proof.Gen.ReferenceIdeal.Run
import proofs.«114956_g19258633355276_cont_8to1_1994_22_alg».proof.Proof.Gen.ReferenceIdeal.Read
import proofs.«114956_g19258633355276_cont_8to1_1994_22_alg».proof.Proof.Gen.Pre_finite_inputs
import Idealize.ShloMosaic.Adequacy
import Idealize.ShloMosaic.Init

noncomputable section

namespace Cert.Proof

open Idealize.ShloMosaic Idealize.SL.Sem

/-- The word-level kernel runs to the end and leaves its arguments unchanged. -/
theorem frame_k : Cert.frame_Kernel := fun m ρ _ =>
  Cert.Kernel.Hand.frame_of_run m ρ (Cert.Kernel.Hand.run_main m ρ)

/-- So does its idealization. -/
theorem frame_ki : Cert.frame_KernelIdeal := fun m ρ _ =>
  Cert.KernelIdeal.Hand.frame_of_run m ρ (Cert.KernelIdeal.Hand.run_main m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end with the perceptron of the arguments. -/
theorem algebraic : Cert.algebraic_KernelIdeal_ReferenceIdeal := by
  intro m ρ m' ρ' _ hagree
  refine ⟨fun c => Cert.Mlp.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Hand.result_eq m c), (h c).2⟩)
      (Cert.KernelIdeal.Hand.value_of_run m ρ (Cert.KernelIdeal.Hand.run_main m ρ))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v15_eq, Cert.RefSide.ref_eq, (hagree c).1, (hagree c).2.1, (hagree c).2.2.1,
      (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
